-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x13 : Shape := ⟨2, ![16384, 13]⟩
abbrev S16384x26 : Shape := ⟨2, ![16384, 26]⟩
abbrev S26x100000x32 : Shape := ⟨3, ![26, 100000, 32]⟩
abbrev S26x100000x1 : Shape := ⟨3, ![26, 100000, 1]⟩
abbrev S1x13 : Shape := ⟨2, ![1, 13]⟩
abbrev S1 : Shape := ⟨1, ![1]⟩
abbrev S256x45 : Shape := ⟨2, ![256, 45]⟩
abbrev S256 : Shape := ⟨1, ![256]⟩
abbrev S128x256 : Shape := ⟨2, ![128, 256]⟩
abbrev S128 : Shape := ⟨1, ![128]⟩
abbrev S1x128 : Shape := ⟨2, ![1, 128]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel
  bcast_S_S26x100000x32 : S_.BroadcastsInDim S26x100000x32 (![] : Fin 0 → Fin S26x100000x32.rank)
  reducesTo_S26x100000x32_S_d0_1_2 : S26x100000x32.ReducesTo [0, 1, 2] S_
  bcast_S_S26x100000x1 : S_.BroadcastsInDim S26x100000x1 (![] : Fin 0 → Fin S26x100000x1.rank)
  reducesTo_S26x100000x1_S_d0_1_2 : S26x100000x1.ReducesTo [0, 1, 2] S_
  bcast_S_S1x13 : S_.BroadcastsInDim S1x13 (![] : Fin 0 → Fin S1x13.rank)
  reducesTo_S1x13_S_d0_1 : S1x13.ReducesTo [0, 1] S_
  bcast_S_S1 : S_.BroadcastsInDim S1 (![] : Fin 0 → Fin S1.rank)
  reducesTo_S1_S_d0 : S1.ReducesTo [0] S_
  bcast_S_S256x45 : S_.BroadcastsInDim S256x45 (![] : Fin 0 → Fin S256x45.rank)
  reducesTo_S256x45_S_d0_1 : S256x45.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_

variable [Facts]

def fn_part3 {F : FTy → Type} [FloatOps F] (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  main_v53

def fn_part2 {F : FTy → Type} [FloatOps F] (main_arg8 : FVec F S128x256 .f32) (main_arg9 : FVec F S128 .f32) (main_arg10 : FVec F S1x128 .f32) (main_arg11 : FVec F S1 .f32) (main_v33 : IVec S_ 1) : IVec S_ 1 :=
  let main_v34 : FVec F S128x256 .f32 := Host.absf main_arg8
  let main_cst_12 : FVec F S_ .f32 := constant S_ .f32 0x7F800000#32
  let main_v35 : FVec F S128x256 .f32 := broadcastInDim S128x256 ![] bcast_S_S128x256 main_cst_12
  let main_v36 : IVec S128x256 1 := cmpf .olt main_v34 main_v35
  let main_c_13 : IVec S_ 1 := constantI S_ 1 1#1
  let main_v37 : IVec S_ 1 := (fun x v => Host.reduce IntOp.andi x v reducesTo_S128x256_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S1x128 .f32 := Host.absf main_arg10
  let main_cst_16 : FVec F S_ .f32 := constant S_ .f32 0x7F800000#32
  let main_v45 : FVec F S1x128 .f32 := broadcastInDim S1x128 ![] bcast_S_S1x128 main_cst_16
  let main_v46 : IVec S1x128 1 := cmpf .olt main_v44 main_v45
  let main_c_17 : IVec S_ 1 := constantI S_ 1 1#1
  let main_v47 : IVec S_ 1 := (fun x v => Host.reduce IntOp.andi x v reducesTo_S1x128_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_v48 main_v49 main_v50

def fn_part1 {F : FTy → Type} [FloatOps F] (main_arg5 : FVec F S1 .f32) (main_arg6 : FVec F S256x45 .f32) (main_arg7 : FVec F S256 .f32) (main_arg8 : FVec F S128x256 .f32) (main_arg9 : FVec F S128 .f32) (main_arg10 : FVec F S1x128 .f32) (main_arg11 : FVec F S1 .f32) (main_v13 : IVec S_ 1) (main_v16 : IVec S1x13 1) : IVec S_ 1 :=
  let main_c_5 : IVec S_ 1 := constantI S_ 1 1#1
  let main_v17 : IVec S_ 1 := (fun x v => Host.reduce IntOp.andi x v reducesTo_S1x13_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S256x45 .f32 := Host.absf main_arg6
  let main_cst_8 : FVec F S_ .f32 := constant S_ .f32 0x7F800000#32
  let main_v25 : FVec F S256x45 .f32 := broadcastInDim S256x45 ![] bcast_S_S256x45 main_cst_8
  let main_v26 : IVec S256x45 1 := cmpf .olt main_v24 main_v25
  let main_c_9 : IVec S_ 1 := constantI S_ 1 1#1
  let main_v27 : IVec S_ 1 := (fun x v => Host.reduce IntOp.andi x v reducesTo_S256x45_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S16384x13 .f32) (main_arg1 : IVec S16384x26 32) (main_arg2 : FVec F S26x100000x32 .f32) (main_arg3 : FVec F S26x100000x1 .f32) (main_arg4 : FVec F S1x13 .f32) (main_arg5 : FVec F S1 .f32) (main_arg6 : FVec F S256x45 .f32) (main_arg7 : FVec F S256 .f32) (main_arg8 : FVec F S128x256 .f32) (main_arg9 : FVec F S128 .f32) (main_arg10 : FVec F S1x128 .f32) (main_arg11 : FVec F S1 .f32) : IVec S_ 1 :=
  let main_v0 : FVec F S16384x13 .f32 := Host.absf main_arg0
  let main_cst : FVec F S_ .f32 := constant S_ .f32 0x7F800000#32
  let main_v1 : FVec F S16384x13 .f32 := broadcastInDim S16384x13 ![] bcast_S_S16384x13 main_cst
  let main_v2 : IVec S16384x13 1 := cmpf .olt main_v0 main_v1
  let main_c : IVec S_ 1 := constantI S_ 1 1#1
  let main_v3 : IVec S_ 1 := (fun x v => Host.reduce IntOp.andi x v reducesTo_S16384x13_S_d0_1 h_S_) main_v2 main_c
  let main_v4 : FVec F S26x100000x32 .f32 := Host.absf main_arg2
  let main_cst_0 : FVec F S_ .f32 := constant S_ .f32 0x7F800000#32
  let main_v5 : FVec F S26x100000x32 .f32 := broadcastInDim S26x100000x32 ![] bcast_S_S26x100000x32 main_cst_0
  let main_v6 : IVec S26x100000x32 1 := cmpf .olt main_v4 main_v5
  let main_c_1 : IVec S_ 1 := constantI S_ 1 1#1
  let main_v7 : IVec S_ 1 := (fun x v => Host.reduce IntOp.andi x v reducesTo_S26x100000x32_S_d0_1_2 h_S_) main_v6 main_c_1
  let main_v8 : IVec S_ 1 := andi main_v3 main_v7
  let main_v9 : FVec F S26x100000x1 .f32 := Host.absf main_arg3
  let main_cst_2 : FVec F S_ .f32 := constant S_ .f32 0x7F800000#32
  let main_v10 : FVec F S26x100000x1 .f32 := broadcastInDim S26x100000x1 ![] bcast_S_S26x100000x1 main_cst_2
  let main_v11 : IVec S26x100000x1 1 := cmpf .olt main_v9 main_v10
  let main_c_3 : IVec S_ 1 := constantI S_ 1 1#1
  let main_v12 : IVec S_ 1 := (fun x v => Host.reduce IntOp.andi x v reducesTo_S26x100000x1_S_d0_1_2 h_S_) main_v11 main_c_3
  let main_v13 : IVec S_ 1 := andi main_v8 main_v12
  let main_v14 : FVec F S1x13 .f32 := Host.absf main_arg4
  let main_cst_4 : FVec F S_ .f32 := constant S_ .f32 0x7F800000#32
  let main_v15 : FVec F S1x13 .f32 := broadcastInDim S1x13 ![] bcast_S_S1x13 main_cst_4
  let main_v16 : IVec S1x13 1 := cmpf .olt main_v14 main_v15
  fn_part1 (F := F) main_arg5 main_arg6 main_arg7 main_arg8 main_arg9 main_arg10 main_arg11 main_v13 main_v16
-- ==== Kernel.lean ====
abbrev S16384x13 : Shape := ⟨2, ![16384, 13]⟩
abbrev S16384x26 : Shape := ⟨2, ![16384, 26]⟩
abbrev S26x100000x32 : Shape := ⟨3, ![26, 100000, 32]⟩
abbrev S26x100000x1 : Shape := ⟨3, ![26, 100000, 1]⟩
abbrev S1x13 : Shape := ⟨2, ![1, 13]⟩
abbrev S1 : Shape := ⟨1, ![1]⟩
abbrev S256x45 : Shape := ⟨2, ![256, 45]⟩
abbrev S256 : Shape := ⟨1, ![256]⟩
abbrev S128x256 : Shape := ⟨2, ![128, 256]⟩
abbrev S128 : Shape := ⟨1, ![128]⟩
abbrev S1x128 : Shape := ⟨2, ![1, 128]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x32 : Shape := ⟨3, ![16384, 26, 32]⟩
abbrev S16384x26x3 : Shape := ⟨3, ![16384, 26, 3]⟩
abbrev S16384x1 : Shape := ⟨2, ![16384, 1]⟩
abbrev S2048x26x32 : Shape := ⟨3, ![2048, 26, 32]⟩
abbrev S2048x26 : Shape := ⟨2, ![2048, 26]⟩
abbrev S2048x13 : Shape := ⟨2, ![2048, 13]⟩
abbrev S2048x1 : Shape := ⟨2, ![2048, 1]⟩
abbrev S2048x32 : Shape := ⟨2, ![2048, 32]⟩
abbrev S13x1 : Shape := ⟨2, ![13, 1]⟩
abbrev S1x1 : Shape := ⟨2, ![1, 1]⟩
abbrev S2048 : Shape := ⟨1, ![2048]⟩
abbrev S2048x45 : Shape := ⟨2, ![2048, 45]⟩
abbrev S45x256 : Shape := ⟨2, ![45, 256]⟩
abbrev S2048x256 : Shape := ⟨2, ![2048, 256]⟩
abbrev S1x256 : Shape := ⟨2, ![1, 256]⟩
abbrev S256x128 : Shape := ⟨2, ![256, 128]⟩
abbrev S2048x128 : Shape := ⟨2, ![2048, 128]⟩
abbrev S128x1 : Shape := ⟨2, ![128, 1]⟩

abbrev nBuf : Space → Nat
  | .hbm => 57
  | .vmem => 16
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x32, .f32⟩
  | .hbm, ⟨3, _⟩ => ⟨S26x100000x1, .f32⟩
  | .hbm, ⟨4, _⟩ => ⟨S1x13, .f32⟩
  | .hbm, ⟨5, _⟩ => ⟨S1, .f32⟩
  | .hbm, ⟨6, _⟩ => ⟨S256x45, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26x32, .f32⟩
  | .hbm, ⟨33, _⟩ => ⟨S_, .i32⟩
  | .hbm, ⟨34, _⟩ => ⟨S1x26, .i32⟩
  | .hbm, ⟨35, _⟩ => ⟨S1x26, .i1⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S_, .i32⟩
  | .hbm, ⟨41, _⟩ => ⟨S16384x26, .i32⟩
  | .hbm, ⟨42, _⟩ => ⟨S16384x26, .i1⟩
  | .hbm, ⟨43, _⟩ => ⟨S_, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26, .i32⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26x1, .i32⟩
  | .hbm, ⟨52, _⟩ => ⟨S16384x26x1, .i32⟩
  | .hbm, ⟨53, _⟩ => ⟨S16384x26x1, .i32⟩
  | .hbm, ⟨54, _⟩ => ⟨S16384x26x3, .i32⟩
  | .hbm, ⟨55, _⟩ => ⟨S16384x26, .f32⟩
  | .hbm, ⟨56, _⟩ => ⟨S16384x1, .f32⟩
  | .local _ .vmem, ⟨0, _⟩ => ⟨S2048x26x32, .f32⟩
  | .local _ .vmem, ⟨1, _⟩ => ⟨S2048x26x32, .f32⟩
  | .local _ .vmem, ⟨2, _⟩ => ⟨S2048x26, .f32⟩
  | .local _ .vmem, ⟨3, _⟩ => ⟨S2048x26, .f32⟩
  | .local _ .vmem, ⟨4, _⟩ => ⟨S2048x13, .f32⟩
  | .local _ .vmem, ⟨5, _⟩ => ⟨S2048x13, .f32⟩
  | .local _ .vmem, ⟨6, _⟩ => ⟨S1x13, .f32⟩
  | .local _ .vmem, ⟨7, _⟩ => ⟨S1, .f32⟩
  | .local _ .vmem, ⟨8, _⟩ => ⟨S256x45, .f32⟩
  | .local _ .vmem, ⟨9, _⟩ => ⟨S256, .f32⟩
  | .local _ .vmem, ⟨10, _⟩ => ⟨S128x256, .f32⟩
  | .local _ .vmem, ⟨11, _⟩ => ⟨S128, .f32⟩
  | .local _ .vmem, ⟨12, _⟩ => ⟨S1x128, .f32⟩
  | .local _ .vmem, ⟨13, _⟩ => ⟨S1, .f32⟩
  | .local _ .vmem, ⟨14, _⟩ => ⟨S2048x1, .f32⟩
  | .local _ .vmem, ⟨15, _⟩ => ⟨S2048x1, .f32⟩
  | _, _ => ⟨S16384x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x26x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x26 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x13 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x13 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x45 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  concatenates_S16384x26x1_S16384x26x1_S16384x26x1_S16384x26x3_d2 : Shape.Concatenates [S16384x26x1, S16384x26x1, S16384x26x1] S16384x26x3 2
  inb_S2048x26x32_S2048x26x32_0_0_0 : ∀ a, (![0, 0, 0] : Fin 3 → Nat) a + S2048x26x32.size a ≤ S2048x26x32.size a
  h_S2048x26x32 : 0 < S2048x26x32.numel
  shapeCasts_S2048x26x32_S2048x26x32 : S2048x26x32.ShapeCasts S2048x26x32
  reduces_S2048x26x32_S2048x32 : S2048x26x32.Reduces [1] S2048x32
  inb_S2048x13_S2048x13_0_0 : ∀ a, (![0, 0] : Fin 2 → Nat) a + S2048x13.size a ≤ S2048x13.size a
  h_S2048x13 : 0 < S2048x13.numel
  inb_S1x13_S1x13_0_0 : ∀ a, (![0, 0] : Fin 2 → Nat) a + S1x13.size a ≤ S1x13.size a
  h_S1x13 : 0 < S1x13.numel
  transposes_S1x13_p1_0_S13x1 : S1x13.Transposes [1, 0] S13x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  inb_S2048x26_S2048x26_0_0 : ∀ a, (![0, 0] : Fin 2 → Nat) a + S2048x26.size a ≤ S2048x26.size a
  h_S2048x26 : 0 < S2048x26.numel
  shapeCasts_S2048x26_S2048x26 : S2048x26.ShapeCasts S2048x26
  reduces_S2048x26_S2048 : S2048x26.Reduces [1] S2048
  shapeCasts_S2048_S2048x1 : S2048.ShapeCasts S2048x1
  concatenates_S2048x32_S2048x13_S2048x45_d1 : Shape.Concatenates [S2048x32, S2048x13] S2048x45 1
  inb_S256x45_S256x45_0_0 : ∀ a, (![0, 0] : Fin 2 → Nat) a + S256x45.size a ≤ S256x45.size a
  h_S256x45 : 0 < S256x45.numel
  transposes_S256x45_p1_0_S45x256 : S256x45.Transposes [1, 0] S45x256
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S128x256_S128x256_0_0 : ∀ a, (![0, 0] : Fin 2 → Nat) a + S128x256.size a ≤ S128x256.size a
  h_S128x256 : 0 < S128x256.numel
  transposes_S128x256_p1_0_S256x128 : S128x256.Transposes [1, 0] S256x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x128_S1x128_0_0 : ∀ a, (![0, 0] : Fin 2 → Nat) a + S1x128.size a ≤ S1x128.size a
  h_S1x128 : 0 < S1x128.numel
  transposes_S1x128_p1_0_S128x1 : S1x128.Transposes [1, 0] S128x1
  inb_S2048x1_S2048x1_0_0 : ∀ a, (![0, 0] : Fin 2 → Nat) a + S2048x1.size a ≤ S2048x1.size a
  h_S2048x1 : 0 < S2048x1.numel
  gather_S26x100000x32_S16384x26x2_S16384x26x32_2_01_n_n_01_2_1132_wf : GatherDims.WF S26x100000x32 S16384x26x2 S16384x26x32 [2] [0, 1] [] [0, 1] [] 2 ![1, 1, 32]
  gather_S26x100000x1_S16384x26x3_S16384x26_n_012_n_n_012_2_111_wf : GatherDims.WF S26x100000x1 S16384x26x3 S16384x26 [] [0, 1, 2] [] [0, 1, 2] [] 2 ![1, 1, 1]
  dot_S2048x13_S13x1_S2048x1_1_0_0_1_n_n_wf : DotDims.WF S2048x13 S13x1 S2048x1 [1] [0] [0] [1] [] []
  dot_S2048x45_S45x256_S2048x256_1_0_0_1_n_n_wf : DotDims.WF S2048x45 S45x256 S2048x256 [1] [0] [0] [1] [] []
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x26x32.size a ≤ S16384x26x32.size a
  hwx0_0 : ∀ i : grid0.Coords, EltTy.bits .f32 = 32 ∨ (Rect.block (s := S16384x26x32) S2048x26x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x26.size a ≤ S16384x26.size a
  hwx0_1 : ∀ i : grid0.Coords, EltTy.bits .f32 = 32 ∨ (Rect.block (s := S16384x26) S2048x26.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x13.size a ≤ S16384x13.size a
  hwx0_2 : ∀ i : grid0.Coords, EltTy.bits .f32 = 32 ∨ (Rect.block (s := S16384x13) S2048x13.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x13.size a ≤ S1x13.size a
  hwx0_3 : ∀ i : grid0.Coords, EltTy.bits .f32 = 32 ∨ (Rect.block (s := S1x13) S1x13.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1.size a ≤ S1.size a
  hwx0_4 : ∀ i : grid0.Coords, EltTy.bits .f32 = 32 ∨ (Rect.block (s := S1) S1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x45.size a ≤ S256x45.size a
  hwx0_5 : ∀ i : grid0.Coords, EltTy.bits .f32 = 32 ∨ (Rect.block (s := S256x45) S256x45.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x256.size a ≤ S128x256.size a
  hwx0_7 : ∀ i : grid0.Coords, EltTy.bits .f32 = 32 ∨ (Rect.block (s := S128x256) S128x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1.size a ≤ S1.size a
  hwx0_10 : ∀ i : grid0.Coords, EltTy.bits .f32 = 32 ∨ (Rect.block (s := S1) S1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S16384x1.size a
  hwx0_11 : ∀ i : grid0.Coords, EltTy.bits .f32 = 32 ∨ (Rect.block (s := S16384x1) S2048x1.size (cc0_transform_11 i) (hinb0_11 i)).WholeWords (EltTy.packing .f32)

variable [Facts₀]

def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def dot_S2048x13_S13x1_S2048x1_1_0_0_1_n_n : DotDims S2048x13 S13x1 S2048x1 where
  lhsContracting := [1]
  rhsContracting := [0]
  lhsNonContracting := [0]
  rhsNonContracting := [1]
  lhsBatch := []
  rhsBatch := []
  wf := dot_S2048x13_S13x1_S2048x1_1_0_0_1_n_n_wf
def dot_S2048x45_S45x256_S2048x256_1_0_0_1_n_n : DotDims S2048x45 S45x256 S2048x256 where
  lhsContracting := [1]
  rhsContracting := [0]
  lhsNonContracting := [0]
  rhsNonContracting := [1]
  lhsBatch := []
  rhsBatch := []
  wf := dot_S2048x45_S45x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v16) S2048x26x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S2048x26.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x13.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1x13.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S256x45.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S128x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S1x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v35) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S16384x13 : Shape := ⟨2, ![16384, 13]⟩
abbrev S16384x26 : Shape := ⟨2, ![16384, 26]⟩
abbrev S26x100000x32 : Shape := ⟨3, ![26, 100000, 32]⟩
abbrev S26x100000x1 : Shape := ⟨3, ![26, 100000, 1]⟩
abbrev S1x13 : Shape := ⟨2, ![1, 13]⟩
abbrev S1 : Shape := ⟨1, ![1]⟩
abbrev S256x45 : Shape := ⟨2, ![256, 45]⟩
abbrev S256 : Shape := ⟨1, ![256]⟩
abbrev S128x256 : Shape := ⟨2, ![128, 256]⟩
abbrev S128 : Shape := ⟨1, ![128]⟩
abbrev S1x128 : Shape := ⟨2, ![1, 128]⟩
abbrev S26 : Shape := ⟨1, ![26]⟩
abbrev S1x26 : Shape := ⟨2, ![1, 26]⟩
abbrev S_ : Shape := ⟨0, ![]⟩
abbrev S16384x26x1 : Shape := ⟨3, ![16384, 26, 1]⟩
abbrev S16384x26x2 : Shape := ⟨3, ![16384, 26, 2]⟩
abbrev S16384x26x32 : Shape := ⟨3, ![16384, 26, 32]⟩
abbrev S16384x26x3 : Shape := ⟨3, ![16384, 26, 3]⟩
abbrev S13x1 : Shape := ⟨2, ![13, 1]⟩
abbrev S16384x1 : Shape := ⟨2, ![16384, 1]⟩
abbrev S1x1 : Shape := ⟨2, ![1, 1]⟩
abbrev S16384 : Shape := ⟨1, ![16384]⟩
abbrev S16384x32 : Shape := ⟨2, ![16384, 32]⟩
abbrev S16384x45 : Shape := ⟨2, ![16384, 45]⟩
abbrev S45x256 : Shape := ⟨2, ![45, 256]⟩
abbrev S16384x256 : Shape := ⟨2, ![16384, 256]⟩
abbrev S1x256 : Shape := ⟨2, ![1, 256]⟩
abbrev S256x128 : Shape := ⟨2, ![256, 128]⟩
abbrev S16384x128 : Shape := ⟨2, ![16384, 128]⟩
abbrev S128x1 : Shape := ⟨2, ![128, 1]⟩

abbrev nBuf : Space → Nat
  | .hbm => 106
  | .vmem => 0
  | .smem => 0
  | _ => 0

abbrev bufTy : (tb : Table) → Fin (tcTables nBuf tb) → BufTy
  | .hbm, ⟨0, _⟩ => ⟨S16384x13, .f32⟩
  | .hbm, ⟨1, _⟩ => ⟨S16384x26, .i32⟩
  | .hbm, ⟨2, _⟩ => ⟨S26x100000x32, .f32⟩
  | .hbm, ⟨3, _⟩ => ⟨S26x100000x1, .f32⟩
  | .hbm, ⟨4, _⟩ => ⟨S1x13, .f32⟩
  | .hbm, ⟨5, _⟩ => ⟨S1, .f32⟩
  | .hbm, ⟨6, _⟩ => ⟨S256x45, .f32⟩
  | .hbm, ⟨7, _⟩ => ⟨S256, .f32⟩
  | .hbm, ⟨8, _⟩ => ⟨S128x256, .f32⟩
  | .hbm, ⟨9, _⟩ => ⟨S128, .f32⟩
  | .hbm, ⟨10, _⟩ => ⟨S1x128, .f32⟩
  | .hbm, ⟨11, _⟩ => ⟨S1, .f32⟩
  | .hbm, ⟨12, _⟩ => ⟨S26, .i32⟩
  | .hbm, ⟨13, _⟩ => ⟨S1x26, .i32⟩
  | .hbm, ⟨14, _⟩ => ⟨S_, .i32⟩
  | .hbm, ⟨15, _⟩ => ⟨S1x26, .i32⟩
  | .hbm, ⟨16, _⟩ => ⟨S1x26, .i1⟩
  | .hbm, ⟨17, _⟩ => ⟨S_, .i32⟩
  | .hbm, ⟨18, _⟩ => ⟨S1x26, .i32⟩
  | .hbm, ⟨19, _⟩ => ⟨S1x26, .i32⟩
  | .hbm, ⟨20, _⟩ => ⟨S1x26, .i32⟩
  | .hbm, ⟨21, _⟩ => ⟨S_, .i32⟩
  | .hbm, ⟨22, _⟩ => ⟨S16384x26, .i32⟩
  | .hbm, ⟨23, _⟩ => ⟨S16384x26, .i1⟩
  | .hbm, ⟨24, _⟩ => ⟨S_, .i32⟩
  | .hbm, ⟨25, _⟩ => ⟨S16384x26, .i32⟩
  | .hbm, ⟨26, _⟩ => ⟨S16384x26, .i32⟩
  | .hbm, ⟨27, _⟩ => ⟨S16384x26, .i32⟩
  | .hbm, ⟨28, _⟩ => ⟨S16384x26, .i32⟩
  | .hbm, ⟨29, _⟩ => ⟨S16384x26x1, .i32⟩
  | .hbm, ⟨30, _⟩ => ⟨S16384x26x1, .i32⟩
  | .hbm, ⟨31, _⟩ => ⟨S16384x26x2, .i32⟩
  | .hbm, ⟨32, _⟩ => ⟨S16384x26x32, .f32⟩
  | .hbm, ⟨33, _⟩ => ⟨S_, .i32⟩
  | .hbm, ⟨34, _⟩ => ⟨S1x26, .i32⟩
  | .hbm, ⟨35, _⟩ => ⟨S1x26, .i1⟩
  | .hbm, ⟨36, _⟩ => ⟨S_, .i32⟩
  | .hbm, ⟨37, _⟩ => ⟨S1x26, .i32⟩
  | .hbm, ⟨38, _⟩ => ⟨S1x26, .i32⟩
  | .hbm, ⟨39, _⟩ => ⟨S1x26, .i32⟩
  | .hbm, ⟨40, _⟩ => ⟨S_, .i32⟩
  | .hbm, ⟨41, _⟩ => ⟨S16384x26, .i32⟩
  | .hbm, ⟨42, _⟩ => ⟨S16384x26, .i1⟩
  | .hbm, ⟨43, _⟩ => ⟨S_, .i32⟩
  | .hbm, ⟨44, _⟩ => ⟨S16384x26, .i32⟩
  | .hbm, ⟨45, _⟩ => ⟨S16384x26, .i32⟩
  | .hbm, ⟨46, _⟩ => ⟨S16384x26, .i32⟩
  | .hbm, ⟨47, _⟩ => ⟨S16384x26, .i32⟩
  | .hbm, ⟨48, _⟩ => ⟨S_, .i32⟩
  | .hbm, ⟨49, _⟩ => ⟨S16384x26, .i32⟩
  | .hbm, ⟨50, _⟩ => ⟨S16384x26, .i32⟩
  | .hbm, ⟨51, _⟩ => ⟨S16384x26x1, .i32⟩
  | .hbm, ⟨52, _⟩ => ⟨S16384x26x1, .i32⟩
  | .hbm, ⟨53, _⟩ => ⟨S16384x26x1, .i32⟩
  | .hbm, ⟨54, _⟩ => ⟨S16384x26x3, .i32⟩
  | .hbm, ⟨55, _⟩ => ⟨S16384x26, .f32⟩
  | .hbm, ⟨56, _⟩ => ⟨S13x1, .f32⟩
  | .hbm, ⟨57, _⟩ => ⟨S16384x1, .f32⟩
  | .hbm, ⟨58, _⟩ => ⟨S1x1, .f32⟩
  | .hbm, ⟨59, _⟩ => ⟨S16384x1, .f32⟩
  | .hbm, ⟨60, _⟩ => ⟨S16384x1, .f32⟩
  | .hbm, ⟨61, _⟩ => ⟨S_, .f32⟩
  | .hbm, ⟨62, _⟩ => ⟨S16384, .f32⟩
  | .hbm, ⟨63, _⟩ => ⟨S16384x1, .f32⟩
  | .hbm, ⟨64, _⟩ => ⟨S16384x1, .f32⟩
  | .hbm, ⟨65, _⟩ => ⟨S_, .f32⟩
  | .hbm, ⟨66, _⟩ => ⟨S16384x32, .f32⟩
  | .hbm, ⟨67, _⟩ => ⟨S16384x32, .f32⟩
  | .hbm, ⟨68, _⟩ => ⟨S16384x26x32, .f32⟩
  | .hbm, ⟨69, _⟩ => ⟨S_, .f32⟩
  | .hbm, ⟨70, _⟩ => ⟨S16384x32, .f32⟩
  | .hbm, ⟨71, _⟩ => ⟨S16384x32, .f32⟩
  | .hbm, ⟨72, _⟩ => ⟨S_, .f32⟩
  | .hbm, ⟨73, _⟩ => ⟨S16384x32, .f32⟩
  | .hbm, ⟨74, _⟩ => ⟨S16384x32, .f32⟩
  | .hbm, ⟨75, _⟩ => ⟨S16384x45, .f32⟩
  | .hbm, ⟨76, _⟩ => ⟨S45x256, .f32⟩
  | .hbm, ⟨77, _⟩ => ⟨S16384x256, .f32⟩
  | .hbm, ⟨78, _⟩ => ⟨S1x256, .f32⟩
  | .hbm, ⟨79, _⟩ => ⟨S16384x256, .f32⟩
  | .hbm, ⟨80, _⟩ => ⟨S16384x256, .f32⟩
  | .hbm, ⟨81, _⟩ => ⟨S_, .f32⟩
  | .hbm, ⟨82, _⟩ => ⟨S16384x256, .f32⟩
  | .hbm, ⟨83, _⟩ => ⟨S16384x256, .f32⟩
  | .hbm, ⟨84, _⟩ => ⟨S256x128, .f32⟩
  | .hbm, ⟨85, _⟩ => ⟨S16384x128, .f32⟩
  | .hbm, ⟨86, _⟩ => ⟨S1x128, .f32⟩
  | .hbm, ⟨87, _⟩ => ⟨S16384x128, .f32⟩
  | .hbm, ⟨88, _⟩ => ⟨S16384x128, .f32⟩
  | .hbm, ⟨89, _⟩ => ⟨S_, .f32⟩
  | .hbm, ⟨90, _⟩ => ⟨S16384x128, .f32⟩
  | .hbm, ⟨91, _⟩ => ⟨S16384x128, .f32⟩
  | .hbm, ⟨92, _⟩ => ⟨S128x1, .f32⟩
  | .hbm, ⟨93, _⟩ => ⟨S16384x1, .f32⟩
  | .hbm, ⟨94, _⟩ => ⟨S1x1, .f32⟩
  | .hbm, ⟨95, _⟩ => ⟨S16384x1, .f32⟩
  | .hbm, ⟨96, _⟩ => ⟨S16384x1, .f32⟩
  | .hbm, ⟨97, _⟩ => ⟨S16384x1, .f32⟩
  | .hbm, ⟨98, _⟩ => ⟨S16384x1, .f32⟩
  | .hbm, ⟨99, _⟩ => ⟨S16384x1, .f32⟩
  | .hbm, ⟨100, _⟩ => ⟨S_, .f32⟩
  | .hbm, ⟨101, _⟩ => ⟨S16384x1, .f32⟩
  | .hbm, ⟨102, _⟩ => ⟨S16384x1, .f32⟩
  | .hbm, ⟨103, _⟩ => ⟨S_, .f32⟩
  | .hbm, ⟨104, _⟩ => ⟨S16384x1, .f32⟩
  | .hbm, ⟨105, _⟩ => ⟨S16384x1, .f32⟩
  | _, _ => ⟨S16384x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_7 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_cst : Ref sig .tc := ⟨.hbm, 81, rfl⟩
abbrev main_call0_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_call1_cst : Ref sig .tc := ⟨.hbm, 89, rfl⟩
abbrev main_call1_v0 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_11 : Ref sig .tc := ⟨.hbm, 100, rfl⟩
abbrev main_v71 : Ref sig .tc := ⟨.hbm, 101, rfl⟩
abbrev main_v72 : Ref sig .tc := ⟨.hbm, 102, rfl⟩
abbrev main_cst_12 : Ref sig .tc := ⟨.hbm, 103, rfl⟩
abbrev main_v73 : Ref sig .tc := ⟨.hbm, 104, rfl⟩
abbrev main_v74 : Ref sig .tc := ⟨.hbm, 105, rfl⟩

abbrev nD : Nat := 1
abbrev τ : Topo := Topo.v7x

variable {F : FTy → Type} [FloatOps F]

class Facts₀ : Prop where
  bcast_S26_S1x26_1 : S26.BroadcastsInDim S1x26 (![1] : Fin 1 → Fin S1x26.rank)
  bcast_S_S1x26 : S_.BroadcastsInDim S1x26 (![] : Fin 0 → Fin S1x26.rank)
  bcast_S_S16384x26 : S_.BroadcastsInDim S16384x26 (![] : Fin 0 → Fin S16384x26.rank)
  bcast_S1x26_S16384x26_0_1 : S1x26.BroadcastsInDim S16384x26 (![0, 1] : Fin 2 → Fin S16384x26.rank)
  bcast_S16384x26_S16384x26x1_0_1 : S16384x26.BroadcastsInDim S16384x26x1 (![0, 1] : Fin 2 → Fin S16384x26x1.rank)
  concatenates_S16384x26x1_S16384x26x1_S16384x26x2_d2 : Shape.Concatenates [S16384x26x1, S16384x26x1] S16384x26x2 2
  concatenates_S16384x26x1_S16384x26x1_S16384x26x1_S16384x26x3_d2 : Shape.Concatenates [S16384x26x1, S16384x26x1, S16384x26x1] S16384x26x3 2
  transposes_S1x13_S13x1_1_0 : S1x13.Transposes [1, 0] S13x1
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x26_S16384_d1 : S16384x26.ReducesTo [1] S16384
  h_S_ : 0 < S_.numel
  bcast_S16384_S16384x1_0 : S16384.BroadcastsInDim S16384x1 (![0] : Fin 1 → Fin S16384x1.rank)
  reducesTo_S16384x26x32_S16384x32_d1 : S16384x26x32.ReducesTo [1] S16384x32
  bcast_S_S16384x32 : S_.BroadcastsInDim S16384x32 (![] : Fin 0 → Fin S16384x32.rank)
  concatenates_S16384x32_S16384x13_S16384x45_d1 : Shape.Concatenates [S16384x32, S16384x13] S16384x45 1
  transposes_S256x45_S45x256_1_0 : S256x45.Transposes [1, 0] S45x256
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  transposes_S128x256_S256x128_1_0 : S128x256.Transposes [1, 0] S256x128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  transposes_S1x128_S128x1_1_0 : S1x128.Transposes [1, 0] S128x1
  bcast_S_S16384x1 : S_.BroadcastsInDim S16384x1 (![] : Fin 0 → Fin S16384x1.rank)
  gather_S26x100000x32_S16384x26x2_S16384x26x32_2_01_n_n_01_2_1132_wf : GatherDims.WF S26x100000x32 S16384x26x2 S16384x26x32 [2] [0, 1] [] [0, 1] [] 2 ![1, 1, 32]
  gather_S26x100000x1_S16384x26x3_S16384x26_n_012_n_n_012_2_111_wf : GatherDims.WF S26x100000x1 S16384x26x3 S16384x26 [] [0, 1, 2] [] [0, 1, 2] [] 2 ![1, 1, 1]
  dot_S16384x13_S13x1_S16384x1_1_0_0_1_n_n_wf : DotDims.WF S16384x13 S13x1 S16384x1 [1] [0] [0] [1] [] []
  dot_S16384x45_S45x256_S16384x256_1_0_0_1_n_n_wf : DotDims.WF S16384x45 S45x256 S16384x256 [1] [0] [0] [1] [] []
  dot_S16384x256_S256x128_S16384x128_1_0_0_1_n_n_wf : DotDims.WF S16384x256 S256x128 S16384x128 [1] [0] [0] [1] [] []
  dot_S16384x128_S128x1_S16384x1_1_0_0_1_n_n_wf : DotDims.WF S16384x128 S128x1 S16384x1 [1] [0] [0] [1] [] []

variable [Facts₀]

def gather_S26x100000x32_S16384x26x2_S16384x26x32_2_01_n_n_01_2_1132 : GatherDims S26x100000x32 S16384x26x2 S16384x26x32 where
  offsetDims := [2]
  collapsedSliceDims := [0, 1]
  operandBatchingDims := []
  startIndicesBatchingDims := []
  startIndexMap := [0, 1]
  indexVectorDim := 2
  sliceSizes := ![1, 1, 32]
  wf := gather_S26x100000x32_S16384x26x2_S16384x26x32_2_01_n_n_01_2_1132_wf
def gather_S26x100000x1_S16384x26x3_S16384x26_n_012_n_n_012_2_111 : GatherDims S26x100000x1 S16384x26x3 S16384x26 where
  offsetDims := []
  collapsedSliceDims := [0, 1, 2]
  operandBatchingDims := []
  startIndicesBatchingDims := []
  startIndexMap := [0, 1, 2]
  indexVectorDim := 2
  sliceSizes := ![1, 1, 1]
  wf := gather_S26x100000x1_S16384x26x3_S16384x26_n_012_n_n_012_2_111_wf
def dot_S16384x13_S13x1_S16384x1_1_0_0_1_n_n : DotDims S16384x13 S13x1 S16384x1 where
  lhsContracting := [1]
  rhsContracting := [0]
  lhsNonContracting := [0]
  rhsNonContracting := [1]
  lhsBatch := []
  rhsBatch := []
  wf := dot_S16384x13_S13x1_S16384x1_1_0_0_1_n_n_wf
def dot_S16384x45_S45x256_S16384x256_1_0_0_1_n_n : DotDims S16384x45 S45x256 S16384x256 where
  lhsContracting := [1]
  rhsContracting := [0]
  lhsNonContracting := [0]
  rhsNonContracting := [1]
  lhsBatch := []
  rhsBatch := []
  wf := dot_S16384x45_S45x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KernelFrame.lean ====
/-
  The frame of the program: the host prefix (the two per-field gathers of the embedding and linear tables, built
  from index arithmetic on the sparse input), then one launch of the fused kernel over the eight batch tiles of
  2048 rows, each tile reading its block of gathered embeddings, gathered linear weights and dense features and
  the whole of every small weight array, and writing its block of 2048 outputs.

  Stated at any float instance. What is shown: no host operation of the prefix writes an argument array, so the
  launch finds every argument as it was; at each tile the body reads each input block whole and overwrites the
  output block whole with one value, a pure function of the blocks read (the tile's rows of
  logistic(relu(relu([pooled, dense]·W1ᵀ + b1)·W2ᵀ + b2)·fwᵀ + fb + linear part)); hence every execution ends,
  nothing faults, each argument array is unchanged, and the result array holds, block by block, that function
  of the blocks.
-/
import proofs.«413667_j50663434224284_1_alg».proof.Proof.Gen.Kernel.Launch
import proofs.«413667_j50663434224284_1_alg».proof.Proof.Gen.Kernel.Skeleton
import proofs.«413667_j50663434224284_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of core `c` when the kernel is launched: the launch contents pushed through the host prefix. -/
abbrev V (c : Dev nD) (b : Ref sig .tc) : Buf (Elt F) ((c : Thread nD τ).loc b) := StableHlo.after hostOps0 (fun b => m (c, b)) b

/-- No operation of the prefix allocates. -/
theorem hostOps0_fresh : (hostOps0 : List (HloOp τ sig (Elt F))).Forall fun op => op.fresh = ∅ := by
  simp only [List.Forall]; repeat' constructor

/-- The program is its host prefix followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks of the windows -/

/-- The block of window `w` at tile `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block at every tile, whether the tile fetched it or an earlier one
    did (the block index of a window fetched once never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the launch's post -/

/-- From a run whose final state has every window's array at what the proof data computes and every other buffer
    as the launch found it, the statement that each argument array ends as it began: a window's input array is
    never written back, and the three arrays no window reads (the sparse indices and the two tables) are among
    the untouched rest. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).1 7).trans (((dats 0 c).arrAt_in 7 rfl _).trans ((hA c 7).trans (V_main_arg8 m c))),
      ((h c).1 8).trans (((dats 0 c).arrAt_in 8 rfl _).trans ((hA c 8).trans (V_main_arg9 m c))),
      ((h c).1 9).trans (((dats 0 c).arrAt_in 9 rfl _).trans ((hA c 9).trans (V_main_arg10 m c))),
      ((h c).1 10).trans (((dats 0 c).arrAt_in 10 rfl _).trans ((hA c 10).trans (V_main_arg11 m c)))⟩) h

/-! ## The accesses of the body: every one the whole buffer -/

abbrev rEmb : Rect S2048x26x32 := Rect.unit (s := S2048x26x32) ![0, 0, 0] S2048x26x32.size inb_S2048x26x32_S2048x26x32_0_0_0
abbrev rLin : Rect S2048x26 := Rect.unit (s := S2048x26) ![0, 0] S2048x26.size inb_S2048x26_S2048x26_0_0
abbrev rDs : Rect S2048x13 := Rect.unit (s := S2048x13) ![0, 0] S2048x13.size inb_S2048x13_S2048x13_0_0
abbrev rLw : Rect S1x13 := Rect.unit (s := S1x13) ![0, 0] S1x13.size inb_S1x13_S1x13_0_0
abbrev rOne : Rect S1 := Rect.unit (s := S1) ![0] S1.size inb_S1_S1_0
abbrev rW1 : Rect S256x45 := Rect.unit (s := S256x45) ![0, 0] S256x45.size inb_S256x45_S256x45_0_0
abbrev rB1 : Rect S256 := Rect.unit (s := S256) ![0] S256.size inb_S256_S256_0
abbrev rW2 : Rect S128x256 := Rect.unit (s := S128x256) ![0, 0] S128x256.size inb_S128x256_S128x256_0_0
abbrev rB2 : Rect S128 := Rect.unit (s := S128) ![0] S128.size inb_S128_S128_0
abbrev rFw : Rect S1x128 := Rect.unit (s := S1x128) ![0, 0] S1x128.size inb_S1x128_S1x128_0_0
abbrev rOut : Rect S2048x1 := Rect.unit (s := S2048x1) ![0, 0] S2048x1.size inb_S2048x1_S2048x1_0_0

/-! ## What the body leaves in the output buffer -/

/-- The output buffer after the body, from the input blocks: one store of the whole buffer, its value the logistic
    of the sum of the second hidden layer's projection, the final bias and the linear part. -/
def out0_11 (x0 : Vec F S2048x26x32 .f32) (x1 : Vec F S2048x26 .f32) (x2 : Vec F S2048x13 .f32) (x3 : Vec F S1x13 .f32) (x4 : Vec F S1 .f32) (x5 : Vec F S256x45 .f32) (x6 : Vec F S256 .f32) (x7 : Vec F S128x256 .f32) (x8 : Vec F S128 .f32) (x9 : Vec F S1x128 .f32) (x10 : Vec F S1 .f32) : Vec F S2048x1 .f32 :=
  View.canon [⟨rOut, k0_pay1 (k0_pay2 (View.ld x2 rDs) (View.ld x3 rLw) (View.ld x4 rOne) (View.ld x1 rLin))
    (k0_pay3 (View.ld x0 rEmb) (View.ld x2 rDs) (View.ld x5 rW1) (View.ld x6 rB1) (View.ld x7 rW2))
    (View.ld x8 rB2) (View.ld x9 rFw) (View.ld x10 rOne)⟩]

/-- The one store covers the buffer. -/
theorem cover0_11 (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body -/

set_option maxHeartbeats 4000000 in
/-- The body on whole buffers, the inputs at contents `x0 … x10` and the output at anything, runs to its end
    leaving the inputs as they were and the output at `out0_11` of them. -/
theorem sound_kernel (c : Dev nD) (E : Set ℕ) (i : grid0.Coords) (arg1 : Memref sig .tc .vmem S2048x26x32 .f32) (harg1 : arg1.IsWhole) (arg2 : Memref sig .tc .vmem S2048x26 .f32) (harg2 : arg2.IsWhole) (arg3 : Memref sig .tc .vmem S2048x13 .f32) (harg3 : arg3.IsWhole) (arg4 : Memref sig .tc .vmem S1x13 .f32) (harg4 : arg4.IsWhole) (arg5 : Memref sig .tc .vmem S1 .f32) (harg5 : arg5.IsWhole) (arg6 : Memref sig .tc .vmem S256x45 .f32) (harg6 : arg6.IsWhole) (arg7 : Memref sig .tc .vmem S256 .f32) (harg7 : arg7.IsWhole) (arg8 : Memref sig .tc .vmem S128x256 .f32) (harg8 : arg8.IsWhole) (arg9 : Memref sig .tc .vmem S128 .f32) (harg9 : arg9.IsWhole) (arg10 : Memref sig .tc .vmem S1x128 .f32) (harg10 : arg10.IsWhole) (arg11 : Memref sig .tc .vmem S1 .f32) (harg11 : arg11.IsWhole) (arg12 : Memref sig .tc .vmem S2048x1 .f32) (harg12 : arg12.IsWhole)
    (x0 : Vec F S2048x26x32 .f32) (x1 : Vec F S2048x26 .f32) (x2 : Vec F S2048x13 .f32) (x3 : Vec F S1x13 .f32) (x4 : Vec F S1 .f32) (x5 : Vec F S256x45 .f32) (x6 : Vec F S256 .f32) (x7 : Vec F S128x256 .f32) (x8 : Vec F S128 .f32) (x9 : Vec F S1x128 .f32) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__nfm_kernel i arg1 harg1 arg2 harg2 arg3 harg3 arg4 harg4 arg5 harg5 arg6 harg6 arg7 harg7 arg8 harg8 arg9 harg9 arg10 harg10 arg11 harg11 arg12 harg12) K := by
  simp only [cc0__nfm_kernel_eq_skeleton]; unfold cc0__nfm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The proof data of the launch -/

/-- The arrays as the launch finds them; after the body at tile `t` each input buffer at its block and the output
    buffer at `out0_11` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has each window's array at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, nothing faults, and each argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Frame

end
-- ==== Proof.KernelIdealFrame.lean ====
/-
  The frame of the program: the host prefix (the two per-field gathers of the embedding and linear tables, built
  from index arithmetic on the sparse input), then one launch of the fused kernel over the eight batch tiles of
  2048 rows, each tile reading its block of gathered embeddings, gathered linear weights and dense features and
  the whole of every small weight array, and writing its block of 2048 outputs.

  Stated at any float instance. What is shown: no host operation of the prefix writes an argument array, so the
  launch finds every argument as it was; at each tile the body reads each input block whole and overwrites the
  output block whole with one value, a pure function of the blocks read (the tile's rows of
  logistic(relu(relu([pooled, dense]·W1ᵀ + b1)·W2ᵀ + b2)·fwᵀ + fb + linear part)); hence every execution ends,
  nothing faults, each argument array is unchanged, and the result array holds, block by block, that function
  of the blocks.
-/
import proofs.«413667_j50663434224284_1_alg».proof.Proof.Gen.KernelIdeal.Launch
import proofs.«413667_j50663434224284_1_alg».proof.Proof.Gen.KernelIdeal.Skeleton
import proofs.«413667_j50663434224284_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the launch -/

/-- The buffers of core `c` when the kernel is launched: the launch contents pushed through the host prefix. -/
abbrev V (c : Dev nD) (b : Ref sig .tc) : Buf (Elt F) ((c : Thread nD τ).loc b) := StableHlo.after hostOps0 (fun b => m (c, b)) b

/-- No operation of the prefix allocates. -/
theorem hostOps0_fresh : (hostOps0 : List (HloOp τ sig (Elt F))).Forall fun op => op.fresh = ∅ := by
  simp only [List.Forall]; repeat' constructor

/-- The program is its host prefix followed by the launch. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))
/-- No host operation before the region writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.Forall, StableHlo.nullary_writes, StableHlo.unary_writes, StableHlo.binary_writes, StableHlo.ternary_writes, StableHlo.nary_writes, Finset.mem_singleton]
    repeat' apply And.intro
    all_goals exact StableHlo.devRef_ne_of_ne (by decide)))

/-! ## The blocks of the windows -/

/-- The block of window `w` at tile `t`, read off the window's array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's buffer holds the window's block at every tile, whether the tile fetched it or an earlier one
    did (the block index of a window fetched once never moves). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame statement from a run to the launch's post -/

/-- From a run whose final state has every window's array at what the proof data computes and every other buffer
    as the launch found it, the statement that each argument array ends as it began: a window's input array is
    never written back, and the three arrays no window reads (the sparse indices and the two tables) are among
    the untouched rest. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 2).trans (((dats 0 c).arrAt_in 2 rfl _).trans ((hA c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).1 7).trans (((dats 0 c).arrAt_in 7 rfl _).trans ((hA c 7).trans (V_main_arg8 m c))),
      ((h c).1 8).trans (((dats 0 c).arrAt_in 8 rfl _).trans ((hA c 8).trans (V_main_arg9 m c))),
      ((h c).1 9).trans (((dats 0 c).arrAt_in 9 rfl _).trans ((hA c 9).trans (V_main_arg10 m c))),
      ((h c).1 10).trans (((dats 0 c).arrAt_in 10 rfl _).trans ((hA c 10).trans (V_main_arg11 m c)))⟩) h

/-! ## The accesses of the body: every one the whole buffer -/

abbrev rEmb : Rect S2048x26x32 := Rect.unit (s := S2048x26x32) ![0, 0, 0] S2048x26x32.size inb_S2048x26x32_S2048x26x32_0_0_0
abbrev rLin : Rect S2048x26 := Rect.unit (s := S2048x26) ![0, 0] S2048x26.size inb_S2048x26_S2048x26_0_0
abbrev rDs : Rect S2048x13 := Rect.unit (s := S2048x13) ![0, 0] S2048x13.size inb_S2048x13_S2048x13_0_0
abbrev rLw : Rect S1x13 := Rect.unit (s := S1x13) ![0, 0] S1x13.size inb_S1x13_S1x13_0_0
abbrev rOne : Rect S1 := Rect.unit (s := S1) ![0] S1.size inb_S1_S1_0
abbrev rW1 : Rect S256x45 := Rect.unit (s := S256x45) ![0, 0] S256x45.size inb_S256x45_S256x45_0_0
abbrev rB1 : Rect S256 := Rect.unit (s := S256) ![0] S256.size inb_S256_S256_0
abbrev rW2 : Rect S128x256 := Rect.unit (s := S128x256) ![0, 0] S128x256.size inb_S128x256_S128x256_0_0
abbrev rB2 : Rect S128 := Rect.unit (s := S128) ![0] S128.size inb_S128_S128_0
abbrev rFw : Rect S1x128 := Rect.unit (s := S1x128) ![0, 0] S1x128.size inb_S1x128_S1x128_0_0
abbrev rOut : Rect S2048x1 := Rect.unit (s := S2048x1) ![0, 0] S2048x1.size inb_S2048x1_S2048x1_0_0

/-! ## What the body leaves in the output buffer -/

/-- The output buffer after the body, from the input blocks: one store of the whole buffer, its value the logistic
    of the sum of the second hidden layer's projection, the final bias and the linear part. -/
def out0_11 (x0 : Vec F S2048x26x32 .f32) (x1 : Vec F S2048x26 .f32) (x2 : Vec F S2048x13 .f32) (x3 : Vec F S1x13 .f32) (x4 : Vec F S1 .f32) (x5 : Vec F S256x45 .f32) (x6 : Vec F S256 .f32) (x7 : Vec F S128x256 .f32) (x8 : Vec F S128 .f32) (x9 : Vec F S1x128 .f32) (x10 : Vec F S1 .f32) : Vec F S2048x1 .f32 :=
  View.canon [⟨rOut, k0_pay1 (k0_pay2 (View.ld x2 rDs) (View.ld x3 rLw) (View.ld x4 rOne) (View.ld x1 rLin))
    (k0_pay3 (View.ld x0 rEmb) (View.ld x2 rDs) (View.ld x5 rW1) (View.ld x6 rB1) (View.ld x7 rW2))
    (View.ld x8 rB2) (View.ld x9 rFw) (View.ld x10 rOne)⟩]

/-- The one store covers the buffer. -/
theorem cover0_11 (p0 : Vec F S2048x1 .f32) (y : S2048x1.Idx) :
    ∃ pc ∈ ([⟨rOut, p0⟩] : List (View.Piece (Elt F) S2048x1 .f32)), y ∈ pc.1.set :=
  View.cover_of_tiled [⟨rOut, p0⟩] S2048x1.size (by rfl) y

/-! ## The body -/

set_option maxHeartbeats 4000000 in
/-- The body on whole buffers, the inputs at contents `x0 … x10` and the output at anything, runs to its end
    leaving the inputs as they were and the output at `out0_11` of them. -/
theorem sound_kernel (c : Dev nD) (E : Set ℕ) (i : grid0.Coords) (arg1 : Memref sig .tc .vmem S2048x26x32 .f32) (harg1 : arg1.IsWhole) (arg2 : Memref sig .tc .vmem S2048x26 .f32) (harg2 : arg2.IsWhole) (arg3 : Memref sig .tc .vmem S2048x13 .f32) (harg3 : arg3.IsWhole) (arg4 : Memref sig .tc .vmem S1x13 .f32) (harg4 : arg4.IsWhole) (arg5 : Memref sig .tc .vmem S1 .f32) (harg5 : arg5.IsWhole) (arg6 : Memref sig .tc .vmem S256x45 .f32) (harg6 : arg6.IsWhole) (arg7 : Memref sig .tc .vmem S256 .f32) (harg7 : arg7.IsWhole) (arg8 : Memref sig .tc .vmem S128x256 .f32) (harg8 : arg8.IsWhole) (arg9 : Memref sig .tc .vmem S128 .f32) (harg9 : arg9.IsWhole) (arg10 : Memref sig .tc .vmem S1x128 .f32) (harg10 : arg10.IsWhole) (arg11 : Memref sig .tc .vmem S1 .f32) (harg11 : arg11.IsWhole) (arg12 : Memref sig .tc .vmem S2048x1 .f32) (harg12 : arg12.IsWhole)
    (x0 : Vec F S2048x26x32 .f32) (x1 : Vec F S2048x26 .f32) (x2 : Vec F S2048x13 .f32) (x3 : Vec F S1x13 .f32) (x4 : Vec F S1 .f32) (x5 : Vec F S256x45 .f32) (x6 : Vec F S256 .f32) (x7 : Vec F S128x256 .f32) (x8 : Vec F S128 .f32) (x9 : Vec F S1x128 .f32) (x10 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (out0_11 x0 x1 x2 x3 x4 x5 x6 x7 x8 x9 x10)) -∗ K ⟨⟩))
      ⊢ wp frame (wpE (defs₀ (F := F)) Variants.none c none) E (cc0__nfm_kernel i arg1 harg1 arg2 harg2 arg3 harg3 arg4 harg4 arg5 harg5 arg6 harg6 arg7 harg7 arg8 harg8 arg9 harg9 arg10 harg10 arg11 harg11 arg12 harg12) K := by
  simp only [cc0__nfm_kernel_eq_skeleton]; unfold cc0__nfm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  try dsimp only
  exact View.read_writes_eq_canon _ _ _ (cover0_11 _)

/-! ## The proof data of the launch -/

/-- The arrays as the launch finds them; after the body at tile `t` each input buffer at its block and the output
    buffer at `out0_11` of the input blocks; nothing else held, nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body at a tile -/

/-- What the body is called with at tile `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 2000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program ends, and every final state has each window's array at what the
    proof data computes and every other buffer as the launch found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: every execution ends, nothing faults, and each argument array ends as it began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Frame

end
-- ==== Proof.Spec.lean ====
/-
  The network's output for ONE batch row, as a function of that row's data and of the weights, over the extended reals.

  For a row with gathered embeddings e[f][j] (26 fields, 32 components), gathered linear weights l[f] and dense
  features d[k] (13 of them):
    pooled j   = ½ · ((Σ_f e f j)² − Σ_f (e f j)²)                 the bi-interaction pooling
    feat       = pooled (32 entries) followed by d (13 entries)
    hid1 n     = max (Σ_k feat k · W1 n k + b1 n) 0                 256 units
    hid2 p     = max (Σ_n hid1 n · W2 p n + b2 p) 0                 128 units
    linPart    = (Σ_k d k · lw k + lb) + Σ_f l f
    rowOut     = logistic ((Σ_p hid2 p · fw p + fb) + linPart)
  Sums are finite sums in the order of the index type; nothing here needs the summands to be finite, because the
  kernel and the reference group every sum and product the same way.
-/
import Idealize.ShloMosaic.PureOps.Ideal
import Idealize.ShloMosaic.PureOps.Ideal.Laws

noncomputable section

namespace Cert.Nfm

open Idealize.ShloMosaic

/-- The literal one half. -/
def half : EReal := Ideal.ofBits .f32 0x3F000000#32

/-- Bi-interaction pooling of a row's 26 embedding vectors, component `j`. -/
def pooled (e : Fin 26 → Fin 32 → EReal) (j : Fin 32) : EReal :=
  half * ((∑ f : Fin 26, e f j) * (∑ f : Fin 26, e f j) - ∑ f : Fin 26, e f j * e f j)

/-- The first layer's input: the pooled vector followed by the dense features. -/
def feat (e : Fin 26 → Fin 32 → EReal) (d : Fin 13 → EReal) (k : Fin 45) : EReal :=
  if h : k.val < 32 then pooled e ⟨k.val, h⟩ else d ⟨k.val - 32, by have := k.isLt; omega⟩

/-- First hidden layer, unit `n`. -/
def hid1 (x : Fin 45 → EReal) (w1 : Fin 256 → Fin 45 → EReal) (b1 : Fin 256 → EReal) (n : Fin 256) : EReal :=
  max ((∑ k : Fin 45, x k * w1 n k) + b1 n) 0

/-- Second hidden layer, unit `p`. -/
def hid2 (h : Fin 256 → EReal) (w2 : Fin 128 → Fin 256 → EReal) (b2 : Fin 128 → EReal) (p : Fin 128) : EReal :=
  max ((∑ n : Fin 256, h n * w2 p n) + b2 p) 0

/-- The linear part: dense features against the linear weights, the bias, and the gathered per-field weights. -/
def linPart (d lw : Fin 13 → EReal) (lb : EReal) (l : Fin 26 → EReal) : EReal :=
  ((∑ k : Fin 13, d k * lw k) + lb) + ∑ f : Fin 26, l f

/-- The row's output. -/
def rowOut (e : Fin 26 → Fin 32 → EReal) (l : Fin 26 → EReal) (d lw : Fin 13 → EReal) (lb : EReal)
    (w1 : Fin 256 → Fin 45 → EReal) (b1 : Fin 256 → EReal) (w2 : Fin 128 → Fin 256 → EReal) (b2 : Fin 128 → EReal)
    (fw : Fin 128 → EReal) (fb : EReal) : EReal :=
  Ideal.logistic (((∑ p : Fin 128, hid2 (hid1 (feat e d) w1 b1) w2 b2 p * fw p) + fb) + linPart d lw lb l)

end Cert.Nfm

end
-- ==== Proof.KernelRow.lean ====
/-
  One row of the kernel's tile: the value the body stores at row `r` of the output block is the network's output
  (`Cert.Nfm.rowOut`) of row `r` of the tile's input blocks and of the weights.
-/
import proofs.«413667_j50663434224284_1_alg».proof.Proof.Gen.KernelIdeal.Skeleton
import proofs.«413667_j50663434224284_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Row

open Cert.KernelIdeal Cert.KernelIdeal.Gen Cert.Nfm
open Idealize.ShloMosaic Idealize.ShloMosaic.ValueIdx

/-! ## A product of two matrices with the left operand's columns contracted against the right operand's rows -/

section Plain
variable {m k n : Nat} (D : DotDims ⟨2, ![m, k]⟩ ⟨2, ![k, n]⟩ ⟨2, ![m, n]⟩)

theorem plain_lhs0 (hln : D.lhsNonContracting = [0]) (hlb : D.lhsBatch = [])
    (j : (⟨2, ![m, n]⟩ : Shape).Idx) (q : D.contr.Idx) : (D.lhsIdx j q 0).val = (j 0).val := by
  unfold DotDims.lhsIdx
  rw [dif_neg (by rw [hlb]; exact List.not_mem_nil), dif_pos (by rw [hln]; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

theorem plain_rhs1 (hln : D.lhsNonContracting = [0]) (hlb : D.lhsBatch = []) (hrn : D.rhsNonContracting = [1])
    (hrb : D.rhsBatch = []) (j : (⟨2, ![m, n]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.2 rfl)]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

theorem plain_rank (hlc : D.lhsContracting = [1]) : D.contr.rank = 1 := by
  rw [D.rank_contr, hlc]; rfl

theorem plain_size (hlc : D.lhsContracting = [1]) :
    D.contr.size ⟨0, by rw [plain_rank D hlc]; exact Nat.one_pos⟩ = k := by
  rw [D.size_contr 0 (by rw [hlc]; exact Nat.one_pos)]
  simp [hlc]

/-- Into the zero accumulator, such a product at row `r` and column `c` is the sum over the shared axis of the
    products of the left operand's row `r` and the right operand's column `c`. -/
theorem plain_matmul_apply (hlc : D.lhsContracting = [1]) (hrc : D.rhsContracting = [0])
    (hln : D.lhsNonContracting = [0]) (hrn : D.rhsNonContracting = [1]) (hlb : D.lhsBatch = []) (hrb : D.rhsBatch = [])
    (lhs : FVec Ideal ⟨2, ![m, k]⟩ .f32) (rhs : FVec Ideal ⟨2, ![k, n]⟩ .f32) (r : Fin m) (c : Fin n) :
    matmul (F := Ideal) D none lhs rhs (constant ⟨2, ![m, n]⟩ .f32 0x00000000#32) (ix2 r c)
      = ∑ q : Fin k, lhs (ix2 r q) * rhs (ix2 q c) := by
  refine (Ideal.matmul_constant_zero_apply D none lhs rhs (ix2 r c)).trans ?_
  rw [← Equiv.sum_comp (contrEquiv1 D k (plain_rank D hlc) (plain_size D hlc)).symm]
  refine Finset.sum_congr rfl fun q _ => ?_
  have hq := contrEquiv1_symm_val D k (plain_rank D hlc) (plain_size D hlc) q
  have el : D.lhsIdx (ix2 r c) ((contrEquiv1 D k (plain_rank D hlc) (plain_size D hlc)).symm q) = ix2 r q :=
    funext fun a => Fin.ext (by
      match a with
      | ⟨0, _⟩ => exact plain_lhs0 D hln hlb _ _
      | ⟨1, _⟩ => exact (D.lhsIdx_val_of_single hlc _ _).trans hq)
  have er : D.rhsIdx (ix2 r c) ((contrEquiv1 D k (plain_rank D hlc) (plain_size D hlc)).symm q) = ix2 q c :=
    funext fun a => Fin.ext (by
      match a with
      | ⟨0, _⟩ => exact (D.rhsIdx_val_of_single hrc _ _).trans hq
      | ⟨1, _⟩ => exact plain_rhs1 D hln hlb hrn hrb _ _)
  rw [el, er]

end Plain

/-! ## Layers -/

section Layers
variable {m k n : Nat}

/-- A matrix against the transpose of a weight matrix, into the zero accumulator: row `r` of the matrix against row `c`
    of the weights. -/
theorem matmulT_apply (D : DotDims ⟨2, ![m, k]⟩ ⟨2, ![k, n]⟩ ⟨2, ![m, n]⟩)
    (hlc : D.lhsContracting = [1]) (hrc : D.rhsContracting = [0])
    (hln : D.lhsNonContracting = [0]) (hrn : D.rhsNonContracting = [1]) (hlb : D.lhsBatch = []) (hrb : D.rhsBatch = [])
    (x : FVec Ideal ⟨2, ![m, k]⟩ .f32) (w : FVec Ideal ⟨2, ![n, k]⟩ .f32)
    (ht : (⟨2, ![n, k]⟩ : Shape).Transposes [1, 0] ⟨2, ![k, n]⟩) (r : Fin m) (c : Fin n) :
    matmul (F := Ideal) D none x (transpose ⟨2, ![k, n]⟩ [1, 0] w ht) (constant ⟨2, ![m, n]⟩ .f32 0x00000000#32) (ix2 r c)
      = ∑ q : Fin k, x (ix2 r q) * w (ix2 c q) := by
  refine (plain_matmul_apply D hlc hrc hln hrn hlb hrb x _ r c).trans ?_
  exact Finset.sum_congr rfl fun q _ => congrArg (x (ix2 r q) * ·) (transpose_ix2_apply w ht q c)

/-- A vector viewed as one row and repeated over the rows reads, at `(r, c)`, its entry `c`. -/
theorem bias_apply (b : FVec Ideal ⟨1, ![n]⟩ .f32) (hc : (⟨1, ![n]⟩ : Shape).ShapeCasts ⟨2, ![1, n]⟩)
    (hb : (⟨2, ![1, n]⟩ : Shape).Broadcasts ⟨2, ![m, n]⟩) (r : Fin m) (c : Fin n) :
    broadcastTo ⟨2, ![m, n]⟩ (shapeCast ⟨2, ![1, n]⟩ b hc) hb (ix2 r c) = b (ix1 c) :=
  (broadcastTo_1b_ab_apply _ hb r c).trans (shapeCast_a_1a_apply b hc 0 c)

/-- Adding the bias row and taking the maximum with zero, entry by entry. -/
theorem relu_bias_apply (y : FVec Ideal ⟨2, ![m, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![m, n]⟩)
    (r : Fin m) (c : Fin n) :
    maximumf (addf y (broadcastTo ⟨2, ![m, n]⟩ (shapeCast ⟨2, ![1, n]⟩ b hc) hb))
        (broadcast ⟨2, ![m, n]⟩ (Scalar.ofBits (F := Ideal) .f32 0x00000000#32)) (ix2 r c)
      = max (y (ix2 r c) + b (ix1 c)) 0 := by
  show max (y (ix2 r c) + broadcastTo ⟨2, ![m, n]⟩ (shapeCast ⟨2, ![1, n]⟩ b hc) hb (ix2 r c))
      (Ideal.ofBits .f32 0x00000000#32) = _
  rw [bias_apply, Ideal.ofBits_zero_f32]

end Layers

/-! ## The stages of the row's computation -/

/-- The sum over the 26 fields of a [2048, 26, 32] block, at row `r` and component `j`. -/
theorem fieldSum_apply (v : FVec Ideal S2048x26x32 .f32) (r : Fin 2048) (j : Fin 32) :
    multiReduction (F := Ideal) .add [1] S2048x32 v 0x00000000#32 reduces_S2048x26x32_S2048x32 (.inl rfl) rfl (ix2 r j)
      = ∑ f : Fin 26, v (ix3 r f j) := by
  refine (Ideal.multiReduction_add_single v _ reduces_S2048x26x32_S2048x32 _ _ (ix2 r j)).trans ?_
  exact Finset.sum_congr rfl fun f _ => congrArg v (funext fun c => Fin.ext (by
    match c with
    | ⟨0, _⟩ => rfl
    | ⟨1, _⟩ => rfl
    | ⟨2, _⟩ => rfl))

/-- The sum over the 26 fields of a [2048, 26] block, at row `r`. -/
theorem laneSum_apply (v : FVec Ideal S2048x26 .f32) (r : Fin 2048) :
    multiReduction (F := Ideal) .add [1] S2048 v 0x00000000#32 reduces_S2048x26_S2048 (.inl rfl) rfl (ix1 r)
      = ∑ f : Fin 26, v (ix2 r f) := by
  refine (Ideal.multiReduction_add_single v _ reduces_S2048x26_S2048 _ _ (ix1 r)).trans ?_
  exact Finset.sum_congr rfl fun f _ => congrArg v (funext fun c => Fin.ext (by
    match c with
    | ⟨0, _⟩ => rfl
    | ⟨1, _⟩ => rfl))

/-- The pooled block at row `r` and component `j`: half of the square of the field sum less the field sum of squares. -/
theorem pooled_apply (x0 : Vec Ideal S2048x26x32 .f32) (r : Fin 2048) (j : Fin 32) :
    mulf (F := Ideal) (broadcast S2048x32 (Scalar.ofBits (F := Ideal) .f32 0x3F000000#32))
        (subf
          (mulf
            (multiReduction (F := Ideal) .add [1] S2048x32 (shapeCast S2048x26x32 x0 shapeCasts_S2048x26x32_S2048x26x32)
              0x00000000#32 reduces_S2048x26x32_S2048x32 (.inl rfl) rfl)
            (multiReduction (F := Ideal) .add [1] S2048x32 (shapeCast S2048x26x32 x0 shapeCasts_S2048x26x32_S2048x26x32)
              0x00000000#32 reduces_S2048x26x32_S2048x32 (.inl rfl) rfl))
          (multiReduction (F := Ideal) .add [1] S2048x32
            (mulf (shapeCast S2048x26x32 x0 shapeCasts_S2048x26x32_S2048x26x32)
              (shapeCast S2048x26x32 x0 shapeCasts_S2048x26x32_S2048x26x32))
            0x00000000#32 reduces_S2048x26x32_S2048x32 (.inl rfl) rfl)) (ix2 r j)
      = pooled (fun f j => x0 (ix3 r f j)) j := by
  rw [shapeCast_self]
  show Ideal.ofBits .f32 0x3F000000#32 * (_ * _ - _) = _
  rw [fieldSum_apply, fieldSum_apply]
  rfl

/-- The pooled block followed by the dense block, at row `r` and position `k`. -/
theorem concat_apply (a : FVec Ideal S2048x32 .f32) (d : Vec Ideal S2048x13 .f32) (r : Fin 2048) (k : Fin 45) :
    concatenate S2048x45 1 [⟨S2048x32, a⟩, ⟨S2048x13, d⟩] concatenates_S2048x32_S2048x13_S2048x45_d1 (ix2 r k)
      = if h : k.val < 32 then a (ix2 r ⟨k.val, h⟩) else d (ix2 r ⟨k.val - 32, by have := k.isLt; omega⟩) := by
  split
  · next h =>
    exact concatenate_pair_apply_left 1 a d concatenates_S2048x32_S2048x13_S2048x45_d1 (ix2 r k) rfl
      (ix2 r ⟨k.val, h⟩) (fun b => match b with
        | ⟨0, _⟩ => rfl
        | ⟨1, _⟩ => rfl)
  · next h =>
    exact concatenate_pair_apply_right 1 a d concatenates_S2048x32_S2048x13_S2048x45_d1 (ix2 r k) rfl rfl
      (ix2 r ⟨k.val - 32, by have := k.isLt; omega⟩) (fun b hb => match b, hb with
        | ⟨0, _⟩, _ => rfl
        | ⟨1, _⟩, hb => absurd rfl hb) (by show k.val - 32 + 32 = k.val; omega)

/-- The second layer's products at row `r` and unit `p`: the first hidden layer of the row's features against row `p`
    of the second weight matrix. -/
theorem pay3_apply (x0 : Vec Ideal S2048x26x32 .f32) (x2 : Vec Ideal S2048x13 .f32) (x5 : Vec Ideal S256x45 .f32)
    (x6 : Vec Ideal S256 .f32) (x7 : Vec Ideal S128x256 .f32) (r : Fin 2048) (p : Fin 128) :
    k0_pay3 (F := Ideal) x0 x2 x5 x6 x7 (ix2 r p)
      = ∑ n : Fin 256, hid1 (feat (fun f j => x0 (ix3 r f j)) (fun k => x2 (ix2 r k)))
          (fun n k => x5 (ix2 n k)) (fun n => x6 (ix1 n)) n * x7 (ix2 p n) := by
  unfold k0_pay3
  refine (matmulT_apply dot_S2048x256_S256x128_S2048x128_1_0_0_1_n_n rfl rfl rfl rfl rfl rfl _ x7
    transposes_S128x256_p1_0_S256x128 r p).trans ?_
  refine Finset.sum_congr rfl fun n _ => congrArg (· * x7 (ix2 p n)) ?_
  refine (relu_bias_apply _ x6 shapeCasts_S256_S1x256 broadcasts_S1x256_S2048x256 r n).trans ?_
  unfold hid1
  refine congrArg (fun t => max (t + x6 (ix1 n)) 0) ?_
  refine (matmulT_apply dot_S2048x45_S45x256_S2048x256_1_0_0_1_n_n rfl rfl rfl rfl rfl rfl _ x5
    transposes_S256x45_p1_0_S45x256 r n).trans ?_
  refine Finset.sum_congr rfl fun k _ => congrArg (· * x5 (ix2 n k)) ?_
  refine (concat_apply _ x2 r k).trans ?_
  unfold feat
  split
  · next h => exact pooled_apply x0 r ⟨k.val, h⟩
  · rfl

/-- The linear part at row `r`. -/
theorem pay2_apply (x2 : Vec Ideal S2048x13 .f32) (x3 : Vec Ideal S1x13 .f32) (x4 : Vec Ideal S1 .f32)
    (x1 : Vec Ideal S2048x26 .f32) (r : Fin 2048) :
    k0_pay2 (F := Ideal) x2 x3 x4 x1 (ix2 r (0 : Fin 1))
      = linPart (fun k => x2 (ix2 r k)) (fun k => x3 (ix2 (0 : Fin 1) k)) (x4 (ix1 (0 : Fin 1))) (fun f => x1 (ix2 r f)) := by
  unfold k0_pay2 linPart
  show (_ + _) + _ = _
  rw [matmulT_apply dot_S2048x13_S13x1_S2048x1_1_0_0_1_n_n rfl rfl rfl rfl rfl rfl x2 x3
    transposes_S1x13_p1_0_S13x1 r 0, bias_apply x4 shapeCasts_S1_S1x1 broadcasts_S1x1_S2048x1 r 0]
  refine congrArg (fun t : EReal => ((∑ k : Fin 13, x2 (ix2 r k) * x3 (ix2 (0 : Fin 1) k)) + x4 (ix1 (0 : Fin 1))) + t) ?_
  refine (shapeCast_apply _ shapeCasts_S2048_S2048x1 (ix2 r (0 : Fin 1)) (ix1 r) ?_).trans ?_
  · rw [Shape.rowMajor_val_two, Shape.rowMajor_val_one]
    show r.val = r.val * 1 + 0
    omega
  · rw [shapeCast_self]
    exact laneSum_apply x1 r

/-- The stored value at row `r`, over the second layer's products and the linear part. -/
theorem pay1_apply (v21 : FVec Ideal S2048x1 .f32) (v34 : FVec Ideal S2048x128 .f32) (x8 : Vec Ideal S128 .f32)
    (x9 : Vec Ideal S1x128 .f32) (x10 : Vec Ideal S1 .f32) (r : Fin 2048) :
    k0_pay1 (F := Ideal) v21 v34 x8 x9 x10 (ix2 r (0 : Fin 1))
      = Ideal.logistic (((∑ p : Fin 128, max (v34 (ix2 r p) + x8 (ix1 p)) 0 * x9 (ix2 (0 : Fin 1) p))
          + x10 (ix1 (0 : Fin 1))) + v21 (ix2 r (0 : Fin 1))) := by
  unfold k0_pay1
  show Ideal.logistic ((_ + _) + _) = _
  rw [matmulT_apply dot_S2048x128_S128x1_S2048x1_1_0_0_1_n_n rfl rfl rfl rfl rfl rfl _ x9
    transposes_S1x128_p1_0_S128x1 r 0, bias_apply x10 shapeCasts_S1_S1x1 broadcasts_S1x1_S2048x1 r 0]
  refine congrArg (fun t => Ideal.logistic ((t + x10 (ix1 (0 : Fin 1))) + v21 (ix2 r (0 : Fin 1)))) ?_
  exact Finset.sum_congr rfl fun p _ => congrArg (· * x9 (ix2 (0 : Fin 1) p))
    (relu_bias_apply v34 x8 shapeCasts_S128_S1x128 broadcasts_S1x128_S2048x128 r p)

/-- Row `r` of what the body stores is `rowOut` of row `r` of the blocks it loaded. -/
theorem pay_row (x0 : Vec Ideal S2048x26x32 .f32) (x1 : Vec Ideal S2048x26 .f32) (x2 : Vec Ideal S2048x13 .f32)
    (x3 : Vec Ideal S1x13 .f32) (x4 : Vec Ideal S1 .f32) (x5 : Vec Ideal S256x45 .f32) (x6 : Vec Ideal S256 .f32)
    (x7 : Vec Ideal S128x256 .f32) (x8 : Vec Ideal S128 .f32) (x9 : Vec Ideal S1x128 .f32) (x10 : Vec Ideal S1 .f32)
    (r : Fin 2048) :
    k0_pay1 (F := Ideal) (k0_pay2 x2 x3 x4 x1) (k0_pay3 x0 x2 x5 x6 x7) x8 x9 x10 (ix2 r (0 : Fin 1))
      = rowOut (fun f j => x0 (ix3 r f j)) (fun f => x1 (ix2 r f)) (fun k => x2 (ix2 r k))
          (fun k => x3 (ix2 (0 : Fin 1) k)) (x4 (ix1 (0 : Fin 1)))
          (fun n k => x5 (ix2 n k)) (fun n => x6 (ix1 n)) (fun p n => x7 (ix2 p n)) (fun p => x8 (ix1 p))
          (fun p => x9 (ix2 (0 : Fin 1) p)) (x10 (ix1 (0 : Fin 1))) := by
  rw [pay1_apply, pay2_apply]
  unfold rowOut hid2
  refine congrArg (fun t => Ideal.logistic ((t + x10 (ix1 (0 : Fin 1))) + _)) ?_
  exact Finset.sum_congr rfl fun p _ => congrArg (fun t => max (t + x8 (ix1 p)) 0 * x9 (ix2 (0 : Fin 1) p))
    (pay3_apply x0 x2 x5 x6 x7 r p)

end Cert.KernelIdeal.Row

end
-- ==== Proof.KernelValue.lean ====
/-
  The kernel's result array, whole. Tile `t` of the launch reads rows 2048·t … 2048·t + 2047 of the gathered
  embeddings, the gathered linear weights and the dense features, and all of every weight array; what it writes
  back is rows 2048·t … of the one array function `G` whose entry at row `b` is the network's output
  (`Cert.Nfm.rowOut`) of row `b` of those arrays. The eight tiles' blocks tile the 16384 rows, so the result
  array ends holding `G`.
-/
import proofs.«413667_j50663434224284_1_alg».proof.Proof.KernelIdealFrame
import proofs.«413667_j50663434224284_1_alg».proof.Proof.KernelRow
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frame Cert.Nfm
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The windows' block indices at tile `t`: the three batch-tiled inputs and the output move with the tile along
    the rows; every weight window stays at block 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = t.val ∧ win0_11.index t (1 : Fin 2) = 0 :=
  (by decide +kernel : ∀ t : Fin grid0.N, _)

/-- Row `r` of tile `t` is row 2048·t + r of the batch. -/
def row (t : Fin cfg0.N) (r : Fin 2048) : Fin 16384 :=
  ⟨2048 * t.val + r.val, by have := t.isLt; have h8 : cfg0.N = 8 := N_0; omega⟩

/-! ## Each window's block at a tile, read off its array -/

theorem blk0 (c : Dev nD) (t : Fin cfg0.N) (r : Fin 2048) (f : Fin 26) (j : Fin 32) :
    (iblk m c 0 t : Vec Ideal S2048x26x32 .f32) (ix3 r f j)
      = (V m c main_v16 : S16384x26x32.Idx → Elt Ideal .f32) (ix3 (row t r) f j) := by
  obtain ⟨e0, e1, e2, -⟩ := idx_facts t
  unfold iblk
  rw [View.read_apply]
  show V m c main_v16 _ = V m c main_v16 _
  congr 1
  funext a
  apply Fin.ext
  match a with
  | ⟨0, _⟩ => show win0_0.index t (0 : Fin 3) * 2048 + 1 * r.val = 2048 * t.val + r.val; rw [e0]; omega
  | ⟨1, _⟩ => show win0_0.index t (1 : Fin 3) * 26 + 1 * f.val = f.val; rw [e1]; omega
  | ⟨2, _⟩ => show win0_0.index t (2 : Fin 3) * 32 + 1 * j.val = j.val; rw [e2]; omega

theorem blk1 (c : Dev nD) (t : Fin cfg0.N) (r : Fin 2048) (f : Fin 26) :
    (iblk m c 1 t : Vec Ideal S2048x26 .f32) (ix2 r f)
      = (V m c main_v34 : S16384x26.Idx → Elt Ideal .f32) (ix2 (row t r) f) := by
  obtain ⟨-, -, -, e0, e1, -⟩ := idx_facts t
  unfold iblk
  rw [View.read_apply]
  show V m c main_v34 _ = V m c main_v34 _
  congr 1
  funext a
  apply Fin.ext
  match a with
  | ⟨0, _⟩ => show win0_1.index t (0 : Fin 2) * 2048 + 1 * r.val = 2048 * t.val + r.val; rw [e0]; omega
  | ⟨1, _⟩ => show win0_1.index t (1 : Fin 2) * 26 + 1 * f.val = f.val; rw [e1]; omega

theorem blk2 (c : Dev nD) (t : Fin cfg0.N) (r : Fin 2048) (k : Fin 13) :
    (iblk m c 2 t : Vec Ideal S2048x13 .f32) (ix2 r k)
      = (V m c main_arg0 : S16384x13.Idx → Elt Ideal .f32) (ix2 (row t r) k) := by
  obtain ⟨-, -, -, -, -, e0, e1, -⟩ := idx_facts t
  unfold iblk
  rw [View.read_apply]
  show V m c main_arg0 _ = V m c main_arg0 _
  congr 1
  funext a
  apply Fin.ext
  match a with
  | ⟨0, _⟩ => show win0_2.index t (0 : Fin 2) * 2048 + 1 * r.val = 2048 * t.val + r.val; rw [e0]; omega
  | ⟨1, _⟩ => show win0_2.index t (1 : Fin 2) * 13 + 1 * k.val = k.val; rw [e1]; omega

theorem blk3 (c : Dev nD) (t : Fin cfg0.N) (p : Fin 1) (q : Fin 13) :
    (iblk m c 3 t : Vec Ideal S1x13 .f32) (ix2 p q) = (V m c main_arg4 : S1x13.Idx → Elt Ideal .f32) (ix2 p q) := by
  obtain ⟨-, -, -, -, -, -, -, e0, e1, -⟩ := idx_facts t
  unfold iblk
  rw [View.read_apply]
  show V m c main_arg4 _ = V m c main_arg4 _
  congr 1
  funext a
  apply Fin.ext
  match a with
  | ⟨0, _⟩ => show win0_3.index t (0 : Fin 2) * 1 + 1 * p.val = p.val; rw [e0]; omega
  | ⟨1, _⟩ => show win0_3.index t (1 : Fin 2) * 13 + 1 * q.val = q.val; rw [e1]; omega

theorem blk4 (c : Dev nD) (t : Fin cfg0.N) (p : Fin 1) :
    (iblk m c 4 t : Vec Ideal S1 .f32) (ix1 p) = (V m c main_arg5 : S1.Idx → Elt Ideal .f32) (ix1 p) := by
  obtain ⟨-, -, -, -, -, -, -, -, -, e0, -⟩ := idx_facts t
  unfold iblk
  rw [View.read_apply]
  show V m c main_arg5 _ = V m c main_arg5 _
  congr 1
  funext a
  apply Fin.ext
  match a with
  | ⟨0, _⟩ => show win0_4.index t (0 : Fin 1) * 1 + 1 * p.val = p.val; rw [e0]; omega

theorem blk5 (c : Dev nD) (t : Fin cfg0.N) (p : Fin 256) (q : Fin 45) :
    (iblk m c 5 t : Vec Ideal S256x45 .f32) (ix2 p q) = (V m c main_arg6 : S256x45.Idx → Elt Ideal .f32) (ix2 p q) := by
  obtain ⟨-, -, -, -, -, -, -, -, -, -, e0, e1, -⟩ := idx_facts t
  unfold iblk
  rw [View.read_apply]
  show V m c main_arg6 _ = V m c main_arg6 _
  congr 1
  funext a
  apply Fin.ext
  match a with
  | ⟨0, _⟩ => show win0_5.index t (0 : Fin 2) * 256 + 1 * p.val = p.val; rw [e0]; omega
  | ⟨1, _⟩ => show win0_5.index t (1 : Fin 2) * 45 + 1 * q.val = q.val; rw [e1]; omega

theorem blk6 (c : Dev nD) (t : Fin cfg0.N) (p : Fin 256) :
    (iblk m c 6 t : Vec Ideal S256 .f32) (ix1 p) = (V m c main_arg7 : S256.Idx → Elt Ideal .f32) (ix1 p) := by
  obtain ⟨-, -, -, -, -, -, -, -, -, -, -, -, e0, -⟩ := idx_facts t
  unfold iblk
  rw [View.read_apply]
  show V m c main_arg7 _ = V m c main_arg7 _
  congr 1
  funext a
  apply Fin.ext
  match a with
  | ⟨0, _⟩ => show win0_6.index t (0 : Fin 1) * 256 + 1 * p.val = p.val; rw [e0]; omega

theorem blk7 (c : Dev nD) (t : Fin cfg0.N) (p : Fin 128) (q : Fin 256) :
    (iblk m c 7 t : Vec Ideal S128x256 .f32) (ix2 p q) = (V m c main_arg8 : S128x256.Idx → Elt Ideal .f32) (ix2 p q) := by
  obtain ⟨-, -, -, -, -, -, -, -, -, -, -, -, -, e0, e1, -⟩ := idx_facts t
  unfold iblk
  rw [View.read_apply]
  show V m c main_arg8 _ = V m c main_arg8 _
  congr 1
  funext a
  apply Fin.ext
  match a with
  | ⟨0, _⟩ => show win0_7.index t (0 : Fin 2) * 128 + 1 * p.val = p.val; rw [e0]; omega
  | ⟨1, _⟩ => show win0_7.index t (1 : Fin 2) * 256 + 1 * q.val = q.val; rw [e1]; omega

theorem blk8 (c : Dev nD) (t : Fin cfg0.N) (p : Fin 128) :
    (iblk m c 8 t : Vec Ideal S128 .f32) (ix1 p) = (V m c main_arg9 : S128.Idx → Elt Ideal .f32) (ix1 p) := by
  obtain ⟨-, -, -, -, -, -, -, -, -, -, -, -, -, -, -, e0, -⟩ := idx_facts t
  unfold iblk
  rw [View.read_apply]
  show V m c main_arg9 _ = V m c main_arg9 _
  congr 1
  funext a
  apply Fin.ext
  match a with
  | ⟨0, _⟩ => show win0_8.index t (0 : Fin 1) * 128 + 1 * p.val = p.val; rw [e0]; omega

theorem blk9 (c : Dev nD) (t : Fin cfg0.N) (p : Fin 1) (q : Fin 128) :
    (iblk m c 9 t : Vec Ideal S1x128 .f32) (ix2 p q) = (V m c main_arg10 : S1x128.Idx → Elt Ideal .f32) (ix2 p q) := by
  obtain ⟨-, -, -, -, -, -, -, -, -, -, -, -, -, -, -, -, e0, e1, -⟩ := idx_facts t
  unfold iblk
  rw [View.read_apply]
  show V m c main_arg10 _ = V m c main_arg10 _
  congr 1
  funext a
  apply Fin.ext
  match a with
  | ⟨0, _⟩ => show win0_9.index t (0 : Fin 2) * 1 + 1 * p.val = p.val; rw [e0]; omega
  | ⟨1, _⟩ => show win0_9.index t (1 : Fin 2) * 128 + 1 * q.val = q.val; rw [e1]; omega

theorem blk10 (c : Dev nD) (t : Fin cfg0.N) (p : Fin 1) :
    (iblk m c 10 t : Vec Ideal S1 .f32) (ix1 p) = (V m c main_arg11 : S1.Idx → Elt Ideal .f32) (ix1 p) := by
  obtain ⟨-, -, -, -, -, -, -, -, -, -, -, -, -, -, -, -, -, -, e0, -⟩ := idx_facts t
  unfold iblk
  rw [View.read_apply]
  show V m c main_arg11 _ = V m c main_arg11 _
  congr 1
  funext a
  apply Fin.ext
  match a with
  | ⟨0, _⟩ => show win0_10.index t (0 : Fin 1) * 1 + 1 * p.val = p.val; rw [e0]; omega

/-! ## The array function -/

/-- Equal rows and equal weights give equal outputs. -/
theorem rowOut_congr {e e' : Fin 26 → Fin 32 → EReal} {l l' : Fin 26 → EReal} {d d' lw lw' : Fin 13 → EReal} {lb lb' : EReal}
    {w1 w1' : Fin 256 → Fin 45 → EReal} {b1 b1' : Fin 256 → EReal} {w2 w2' : Fin 128 → Fin 256 → EReal} {b2 b2' : Fin 128 → EReal}
    {fw fw' : Fin 128 → EReal} {fb fb' : EReal}
    (he : ∀ f j, e f j = e' f j) (hl : ∀ f, l f = l' f) (hd : ∀ k, d k = d' k) (hlw : ∀ k, lw k = lw' k) (hlb : lb = lb')
    (hw1 : ∀ n k, w1 n k = w1' n k) (hb1 : ∀ n, b1 n = b1' n) (hw2 : ∀ p n, w2 p n = w2' p n) (hb2 : ∀ p, b2 p = b2' p)
    (hfw : ∀ p, fw p = fw' p) (hfb : fb = fb') :
    rowOut e l d lw lb w1 b1 w2 b2 fw fb = rowOut e' l' d' lw' lb' w1' b1' w2' b2' fw' fb' := by
  obtain rfl : e = e' := funext fun f => funext (he f)
  obtain rfl : l = l' := funext hl
  obtain rfl : d = d' := funext hd
  obtain rfl : lw = lw' := funext hlw
  obtain rfl : w1 = w1' := funext fun n => funext (hw1 n)
  obtain rfl : b1 = b1' := funext hb1
  obtain rfl : w2 = w2' := funext fun p => funext (hw2 p)
  obtain rfl : b2 = b2' := funext hb2
  obtain rfl : fw = fw' := funext hfw
  subst hlb hfb
  rfl

/-- The result array as one function of the arrays the launch finds: entry `(b, 0)` is the network's output of
    row `b` of the gathered embeddings `E`, the gathered linear weights `Lv` and the dense features `D`. -/
def G (E : S16384x26x32.Idx → EReal) (Lv : S16384x26.Idx → EReal) (D : S16384x13.Idx → EReal) (lw : S1x13.Idx → EReal)
    (lb : S1.Idx → EReal) (w1 : S256x45.Idx → EReal) (b1 : S256.Idx → EReal) (w2 : S128x256.Idx → EReal)
    (b2 : S128.Idx → EReal) (fw : S1x128.Idx → EReal) (fb : S1.Idx → EReal) : S16384x1.Idx → EReal :=
  fun i => rowOut (fun f j => E (ix3 (⟨(i 0).val, idx2_lt0 i⟩ : Fin 16384) f j))
    (fun f => Lv (ix2 (⟨(i 0).val, idx2_lt0 i⟩ : Fin 16384) f)) (fun k => D (ix2 (⟨(i 0).val, idx2_lt0 i⟩ : Fin 16384) k))
    (fun k => lw (ix2 (0 : Fin 1) k)) (lb (ix1 (0 : Fin 1))) (fun n k => w1 (ix2 n k)) (fun n => b1 (ix1 n))
    (fun p n => w2 (ix2 p n)) (fun p => b2 (ix1 p)) (fun p => fw (ix2 (0 : Fin 1) p)) (fb (ix1 (0 : Fin 1)))

/-! ## What a tile writes back -/

/-- Tile `t` writes back rows 2048·t … of `G` of the arrays the launch finds. -/
theorem flushed_eq (c : Dev nD) (t : Fin cfg0.N) :
    (dats m 0 c).flushed 11 t = ((cfg0.win 11).blk t).view.read (Elt Ideal) (G (V m c main_v16) (V m c main_v34) (V m c main_arg0) (V m c main_arg4) (V m c main_arg5) (V m c main_arg6) (V m c main_arg7) (V m c main_arg8) (V m c main_arg9) (V m c main_arg10) (V m c main_arg11)) := by
  show (cfg0.win 11).cut (grid0.coords t) ((dats m 0 c).after 11 t) = _
  rw [after0_11]
  unfold out0_11
  rw [View.canon_unit_zero hz2]
  simp only [View.ld_unit_zero (S := S2048x26x32) hz3, View.ld_unit_zero (S := S2048x26) hz2, View.ld_unit_zero (S := S2048x13) hz2,
    View.ld_unit_zero (S := S1x13) hz2, View.ld_unit_zero (S := S1) hz1, View.ld_unit_zero (S := S256x45) hz2,
    View.ld_unit_zero (S := S256) hz1, View.ld_unit_zero (S := S128x256) hz2, View.ld_unit_zero (S := S128) hz1,
    View.ld_unit_zero (S := S1x128) hz2]
  funext y
  obtain ⟨r, q, rfl⟩ : ∃ (r : Fin 2048) (q : Fin 1), y = ix2 r q := ⟨y 0, y 1, eq_ix2 y⟩
  obtain rfl : q = 0 := Subsingleton.elim _ _
  have e19 : win0_11.index t (0 : Fin 2) = t.val := (idx_facts t).2.2.2.2.2.2.2.2.2.2.2.2.2.2.2.2.2.2.2.1
  refine (Cert.KernelIdeal.Row.pay_row (iblk m c 0 t) (iblk m c 1 t) (iblk m c 2 t) (iblk m c 3 t) (iblk m c 4 t) (iblk m c 5 t) (iblk m c 6 t)
    (iblk m c 7 t) (iblk m c 8 t) (iblk m c 9 t) (iblk m c 10 t) r).trans ?_
  rw [View.read_apply]
  have hrow : (⟨((((cfg0.win 11).blk t).view.emb (ix2 r (0 : Fin 1))) 0).val, idx2_lt0 _⟩ : Fin 16384) = row t r :=
    Fin.ext (by show win0_11.index t (0 : Fin 2) * 2048 + 1 * r.val = 2048 * t.val + r.val; rw [e19]; omega)
  unfold G
  rw [hrow]
  refine rowOut_congr ?_ ?_ ?_ ?_ ?_ ?_ ?_ ?_ ?_ ?_ ?_
  · intro f j; exact blk0 m c t r f j
  · intro f; exact blk1 m c t r f
  · intro k; exact blk2 m c t r k
  · intro k; exact blk3 m c t 0 k
  · exact blk4 m c t 0
  · intro n k; exact blk5 m c t n k
  · intro n; exact blk6 m c t n
  · intro p n; exact blk7 m c t p n
  · intro p; exact blk8 m c t p
  · intro p; exact blk9 m c t 0 p
  · exact blk10 m c t 0

/-! ## The cover -/

theorem mem_blk (t : Fin cfg0.N) (i : S16384x1.Idx) :
    i ∈ ((cfg0.win 11).blk t).view.set ↔ ∀ a : Fin 2, win0_11.index t a * S2048x1.size a ≤ (i a).val ∧ (i a).val < win0_11.index t a * S2048x1.size a + S2048x1.size a := by
  show i ∈ ((View.whole main_v35).slice (win0_11.rect t)).set ↔ _
  rw [View.set_slice_whole, Rect.mem_set_unit]
  exact Iff.rfl

/-- Row `b` lies in the block of tile `b / 2048`. -/
theorem cover (i : S16384x1.Idx) : ∃ t : Fin cfg0.N, (cfg0.win 11).flush t = true ∧ i ∈ ((cfg0.win 11).blk t).view.set := by
  have hi0 : (i 0).val < 16384 := idx2_lt0 i
  have hi1 : (i 1).val < 1 := idx2_lt1 i
  have h8 : cfg0.N = 8 := N_0
  let t : Fin cfg0.N := ⟨(i 0).val / 2048, by omega⟩
  have e19 : win0_11.index t (0 : Fin 2) = t.val := (idx_facts t).2.2.2.2.2.2.2.2.2.2.2.2.2.2.2.2.2.2.2.1
  have e20 : win0_11.index t (1 : Fin 2) = 0 := (idx_facts t).2.2.2.2.2.2.2.2.2.2.2.2.2.2.2.2.2.2.2.2
  have ht : t.val = (i 0).val / 2048 := rfl
  refine ⟨t, flush0_11 t, ?_⟩
  rw [mem_blk]
  intro a
  match a with
  | ⟨0, _⟩ => show win0_11.index t (0 : Fin 2) * 2048 ≤ (i 0).val ∧ (i 0).val < win0_11.index t (0 : Fin 2) * 2048 + 2048; rw [e19, ht]; omega
  | ⟨1, _⟩ => show win0_11.index t (1 : Fin 2) * 1 ≤ (i 1).val ∧ (i 1).val < win0_11.index t (1 : Fin 2) * 1 + 1; rw [e20]; omega

/-- The result array after the launch is `G` of the arrays the launch finds. -/
theorem final (c : Dev nD) : (dats m 0 c).arrAt 11 cfg0.N = G (V m c main_v16) (V m c main_v34) (V m c main_arg0) (V m c main_arg4) (V m c main_arg5) (V m c main_arg6) (V m c main_arg7) (V m c main_arg8) (V m c main_arg9) (V m c main_arg10) (V m c main_arg11) :=
  (dats m 0 c).arrAt_eq_of_cover 11 _ (fun t _ => flushed_eq m c t) cover

/-! ## The run, read -/

/-- Every execution ends with the result array at `G` of the arrays the launch finds and every argument as it was. -/
theorem run : θ_run defs (onTc (τ := τ) (main (F := Ideal))) ⟨m, fun _ => 0, ρ⟩ (fun r => ∀ c : Dev nD,
      r.2.mem ((c.tc : Thread nD τ).loc main_v35) = G (V m c main_v16) (V m c main_v34) (V m c main_arg0) (V m c main_arg4) (V m c main_arg5) (V m c main_arg6) (V m c main_arg7) (V m c main_arg8) (V m c main_arg9) (V m c main_arg10) (V m c main_arg11)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (final m c),
      ((h c).1 2).trans (((dats m 0 c).arrAt_in 2 rfl _).trans ((A_eq m c 2).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c)))⟩)
    (run_main m ρ)

end Cert.KernelIdeal.Val

end
-- ==== Proof.RefRow.lean ====
/-
  One row of the reference: its result at row `b` is the network's output (`Cert.Nfm.rowOut`) of row `b` of the
  gathered embeddings, the gathered linear weights and the dense features, and of the weights.
-/
import proofs.«413667_j50663434224284_1_alg».proof.Proof.Gen.ReferenceIdeal.Read
import proofs.«413667_j50663434224284_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.Row

open Cert.ReferenceIdeal Cert.ReferenceIdeal.Gen Cert.ReferenceIdeal.Read Cert.Nfm
open Idealize.ShloMosaic Idealize.ShloMosaic.ValueIdx

/-- The bit pattern of the literal one is the extended real `1`. -/
theorem ofBits_one_f32 : Ideal.ofBits .f32 0x3F800000#32 = 1 := by
  simp [Ideal.ofBits, Ideal.ieee, -EReal.coe_mul]; norm_num

section stages

variable (a0 : (⟨S16384x13, .f32⟩ : BufTy).Contents (Elt Ideal)) (a1 : (⟨S16384x26, .i32⟩ : BufTy).Contents (Elt Ideal))
    (a2 : (⟨S26x100000x32, .f32⟩ : BufTy).Contents (Elt Ideal)) (a3 : (⟨S26x100000x1, .f32⟩ : BufTy).Contents (Elt Ideal))
    (a4 : (⟨S1x13, .f32⟩ : BufTy).Contents (Elt Ideal)) (a5 : (⟨S1, .f32⟩ : BufTy).Contents (Elt Ideal))
    (a6 : (⟨S256x45, .f32⟩ : BufTy).Contents (Elt Ideal)) (a7 : (⟨S256, .f32⟩ : BufTy).Contents (Elt Ideal))
    (a8 : (⟨S128x256, .f32⟩ : BufTy).Contents (Elt Ideal)) (a9 : (⟨S128, .f32⟩ : BufTy).Contents (Elt Ideal))
    (a10 : (⟨S1x128, .f32⟩ : BufTy).Contents (Elt Ideal)) (a11 : (⟨S1, .f32⟩ : BufTy).Contents (Elt Ideal))

/-- The sum over the fields of the embeddings' component `j`, at row `r`. -/
theorem v43_at (r : Fin 16384) (j : Fin 32) :
    val_main_v43 (F := Ideal) a1 a2 (ix2 r j) = ∑ f : Fin 26, val_main_v16 (F := Ideal) a1 a2 (ix3 r f j) := by
  rw [val_main_v43_apply, val_main_cst_8_apply, Ideal.ofBits_def, Ideal.ofBits_zero_f32, zero_add]
  refine Finset.sum_congr rfl fun k _ => congrArg _ (funext fun a => Fin.ext (by
    match a with | ⟨0, _⟩ => rfl | ⟨1, _⟩ => rfl | ⟨2, _⟩ => rfl))

/-- The sum over the fields of the squared component `j`, at row `r`. -/
theorem v46_at (r : Fin 16384) (j : Fin 32) :
    val_main_v46 (F := Ideal) a1 a2 (ix2 r j)
      = ∑ f : Fin 26, val_main_v16 (F := Ideal) a1 a2 (ix3 r f j) * val_main_v16 (F := Ideal) a1 a2 (ix3 r f j) := by
  rw [val_main_v46_apply, val_main_cst_9_apply, Ideal.ofBits_def, Ideal.ofBits_zero_f32, zero_add]
  refine Finset.sum_congr rfl fun k _ => ?_
  have e : idx_main_v46 (ix2 r j) k = ix3 r k j := funext fun a => Fin.ext (by
    match a with | ⟨0, _⟩ => rfl | ⟨1, _⟩ => rfl | ⟨2, _⟩ => rfl)
  rw [val_main_v45_apply, Ideal.mulf_def, e]

/-- The pooled vector at row `r`, component `j`. -/
theorem v49_at (r : Fin 16384) (j : Fin 32) :
    val_main_v49 (F := Ideal) a1 a2 (ix2 r j)
      = pooled (fun f j => val_main_v16 (F := Ideal) a1 a2 (ix3 r f j)) j := by
  rw [val_main_v49_apply, val_main_v48_apply, val_main_cst_10_apply, val_main_v47_apply, val_main_v44_apply,
    v43_at, v46_at]
  rfl

/-- The first layer's input at row `r`, column `k`: the pooled vector followed by the dense features. -/
theorem v50_at (r : Fin 16384) (k : Fin 45) :
    val_main_v50 (F := Ideal) a0 a1 a2 (ix2 r k)
      = feat (fun f j => val_main_v16 (F := Ideal) a1 a2 (ix3 r f j)) (fun k => a0 (ix2 r k)) k := by
  unfold val_main_v50 feat
  by_cases h : k.val < 32
  · rw [dif_pos h, ← v49_at]
    exact concatenate_pair_apply_left (t := S16384x45) (s₁ := S16384x32) (s₂ := S16384x13) 1 _ _ _ (ix2 r k) rfl (ix2 r ⟨k.val, h⟩)
      (fun b => match b with | ⟨0, _⟩ => rfl | ⟨1, _⟩ => rfl)
  · rw [dif_neg h]
    exact concatenate_pair_apply_right (t := S16384x45) (s₁ := S16384x32) (s₂ := S16384x13) 1 _ _ _ (ix2 r k) rfl rfl
      (ix2 r ⟨k.val - 32, by have := k.isLt; omega⟩)
      (fun b hb => match b, hb with | ⟨0, _⟩, _ => rfl | ⟨1, _⟩, hb => absurd rfl hb)
      (by show (k.val - 32) + 32 = k.val; omega)

/-- The first layer's product at row `r`, unit `n`. -/
theorem v52_at (r : Fin 16384) (n : Fin 256) :
    val_main_v52 (F := Ideal) a0 a1 a2 a6 (ix2 r n)
      = ∑ k : Fin 45, feat (fun f j => val_main_v16 (F := Ideal) a1 a2 (ix3 r f j)) (fun k => a0 (ix2 r k)) k
          * a6 (ix2 n k) := by
  rw [val_main_v52_apply]
  refine Finset.sum_congr rfl fun k _ => ?_
  have el : lidx_main_v52 (ix2 r n) k = ix2 r k := funext fun a => Fin.ext (by
    match a with | ⟨0, _⟩ => rfl | ⟨1, _⟩ => rfl)
  have er : idx_main_v51 (ridx_main_v52 (ix2 r n) k) = ix2 n k := funext fun a => Fin.ext (by
    match a with | ⟨0, _⟩ => rfl | ⟨1, _⟩ => rfl)
  rw [val_main_v51_apply, el, er, v50_at]

/-- The first hidden layer at row `r`, unit `n`. -/
theorem v56_at (r : Fin 16384) (n : Fin 256) :
    val_main_v56 (F := Ideal) a0 a1 a2 a6 a7 (ix2 r n)
      = hid1 (feat (fun f j => val_main_v16 (F := Ideal) a1 a2 (ix3 r f j)) (fun k => a0 (ix2 r k)))
          (fun n k => a6 (ix2 n k)) (fun n => a7 (ix1 n)) n := by
  have e : idx_main_v53 (idx_main_v54 (ix2 r n)) = ix1 n := funext fun a => Fin.ext (by
    match a with | ⟨0, _⟩ => rfl)
  rw [val_main_v56_apply, val_main_v55_apply, v52_at, val_main_v54_apply, val_main_v53_apply, e,
    val_main_call0_v0_apply, val_main_call0_cst_apply, Ideal.ofBits_def, Ideal.ofBits_zero_f32]
  rfl

/-- The second layer's product at row `r`, unit `p`. -/
theorem v58_at (r : Fin 16384) (p : Fin 128) :
    val_main_v58 (F := Ideal) a0 a1 a2 a6 a7 a8 (ix2 r p)
      = ∑ n : Fin 256, hid1 (feat (fun f j => val_main_v16 (F := Ideal) a1 a2 (ix3 r f j)) (fun k => a0 (ix2 r k)))
          (fun n k => a6 (ix2 n k)) (fun n => a7 (ix1 n)) n * a8 (ix2 p n) := by
  rw [val_main_v58_apply]
  refine Finset.sum_congr rfl fun k _ => ?_
  have el : lidx_main_v58 (ix2 r p) k = ix2 r k := funext fun a => Fin.ext (by
    match a with | ⟨0, _⟩ => rfl | ⟨1, _⟩ => rfl)
  have er : idx_main_v57 (ridx_main_v58 (ix2 r p) k) = ix2 p k := funext fun a => Fin.ext (by
    match a with | ⟨0, _⟩ => rfl | ⟨1, _⟩ => rfl)
  rw [val_main_v57_apply, el, er, v56_at]

/-- The second hidden layer at row `r`, unit `p`. -/
theorem v62_at (r : Fin 16384) (p : Fin 128) :
    val_main_v62 (F := Ideal) a0 a1 a2 a6 a7 a8 a9 (ix2 r p)
      = hid2 (hid1 (feat (fun f j => val_main_v16 (F := Ideal) a1 a2 (ix3 r f j)) (fun k => a0 (ix2 r k)))
          (fun n k => a6 (ix2 n k)) (fun n => a7 (ix1 n))) (fun p n => a8 (ix2 p n)) (fun p => a9 (ix1 p)) p := by
  have e : idx_main_v59 (idx_main_v60 (ix2 r p)) = ix1 p := funext fun a => Fin.ext (by
    match a with | ⟨0, _⟩ => rfl)
  rw [val_main_v62_apply, val_main_v61_apply, v58_at, val_main_v60_apply, val_main_v59_apply, e,
    val_main_call1_v0_apply, val_main_call1_cst_apply, Ideal.ofBits_def, Ideal.ofBits_zero_f32]
  rfl

/-- The output layer's affine value at row `r`. -/
theorem v67_at (r : Fin 16384) :
    val_main_v67 (F := Ideal) a0 a1 a2 a6 a7 a8 a9 a10 a11 (ix2 r (0 : Fin 1))
      = (∑ p : Fin 128, hid2 (hid1 (feat (fun f j => val_main_v16 (F := Ideal) a1 a2 (ix3 r f j)) (fun k => a0 (ix2 r k)))
          (fun n k => a6 (ix2 n k)) (fun n => a7 (ix1 n))) (fun p n => a8 (ix2 p n)) (fun p => a9 (ix1 p)) p
            * a10 (ix2 (0 : Fin 1) p)) + a11 (ix1 (0 : Fin 1)) := by
  have e : idx_main_v65 (idx_main_v66 (ix2 r (0 : Fin 1))) = ix1 (0 : Fin 1) := funext fun a => Fin.ext (by
    match a with | ⟨0, _⟩ => rfl)
  have h64 : val_main_v64 (F := Ideal) a0 a1 a2 a6 a7 a8 a9 a10 (ix2 r (0 : Fin 1))
      = ∑ p : Fin 128, hid2 (hid1 (feat (fun f j => val_main_v16 (F := Ideal) a1 a2 (ix3 r f j)) (fun k => a0 (ix2 r k)))
          (fun n k => a6 (ix2 n k)) (fun n => a7 (ix1 n))) (fun p n => a8 (ix2 p n)) (fun p => a9 (ix1 p)) p
            * a10 (ix2 (0 : Fin 1) p) := by
    rw [val_main_v64_apply]
    refine Finset.sum_congr rfl fun k _ => ?_
    have el : lidx_main_v64 (ix2 r (0 : Fin 1)) k = ix2 r k := funext fun a => Fin.ext (by
      match a with | ⟨0, _⟩ => rfl | ⟨1, _⟩ => rfl)
    have er : idx_main_v63 (ridx_main_v64 (ix2 r (0 : Fin 1)) k) = ix2 (0 : Fin 1) k := funext fun a => Fin.ext (by
      match a with | ⟨0, _⟩ => rfl | ⟨1, _⟩ => rfl)
    rw [val_main_v63_apply, el, er, v62_at]
  rw [val_main_v67_apply, h64, val_main_v66_apply, val_main_v65_apply, e]
  rfl

/-- The linear part at row `r`. -/
theorem v42_at (r : Fin 16384) :
    val_main_v42 (F := Ideal) a0 a1 a3 a4 a5 (ix2 r (0 : Fin 1))
      = linPart (fun k => a0 (ix2 r k)) (fun k => a4 (ix2 (0 : Fin 1) k)) (a5 (ix1 (0 : Fin 1)))
          (fun f => val_main_v34 (F := Ideal) a1 a3 (ix2 r f)) := by
  have e5 : idx_main_v37 (idx_main_v38 (ix2 r (0 : Fin 1))) = ix1 (0 : Fin 1) := funext fun a => Fin.ext (by
    match a with | ⟨0, _⟩ => rfl)
  have h36 : val_main_v36 (F := Ideal) a0 a4 (ix2 r (0 : Fin 1)) = ∑ k : Fin 13, a0 (ix2 r k) * a4 (ix2 (0 : Fin 1) k) := by
    rw [val_main_v36_apply]
    refine Finset.sum_congr rfl fun k _ => ?_
    have el : lidx_main_v36 (ix2 r (0 : Fin 1)) k = ix2 r k := funext fun a => Fin.ext (by
      match a with | ⟨0, _⟩ => rfl | ⟨1, _⟩ => rfl)
    have er : idx_main_v35 (ridx_main_v36 (ix2 r (0 : Fin 1)) k) = ix2 (0 : Fin 1) k := funext fun a => Fin.ext (by
      match a with | ⟨0, _⟩ => rfl | ⟨1, _⟩ => rfl)
    rw [val_main_v35_apply, el, er]
  have h41 : val_main_v41 (F := Ideal) a1 a3 (ix2 r (0 : Fin 1)) = ∑ f : Fin 26, val_main_v34 (F := Ideal) a1 a3 (ix2 r f) := by
    rw [val_main_v41_apply, val_main_v40_apply, val_main_cst_apply, Ideal.ofBits_def, Ideal.ofBits_zero_f32, zero_add]
    refine Finset.sum_congr rfl fun k _ => congrArg _ (funext fun a => Fin.ext (by
      match a with | ⟨0, _⟩ => rfl | ⟨1, _⟩ => rfl))
  rw [val_main_v42_apply, val_main_v39_apply, h36, h41, val_main_v38_apply, val_main_v37_apply, e5]
  rfl

end stages

/-- Row `b` of the reference's result is `rowOut` of row `b` of its gathered arrays and dense features. -/
theorem ref_row (a0 : (⟨S16384x13, .f32⟩ : BufTy).Contents (Elt Ideal)) (a1 : (⟨S16384x26, .i32⟩ : BufTy).Contents (Elt Ideal))
    (a2 : (⟨S26x100000x32, .f32⟩ : BufTy).Contents (Elt Ideal)) (a3 : (⟨S26x100000x1, .f32⟩ : BufTy).Contents (Elt Ideal))
    (a4 : (⟨S1x13, .f32⟩ : BufTy).Contents (Elt Ideal)) (a5 : (⟨S1, .f32⟩ : BufTy).Contents (Elt Ideal))
    (a6 : (⟨S256x45, .f32⟩ : BufTy).Contents (Elt Ideal)) (a7 : (⟨S256, .f32⟩ : BufTy).Contents (Elt Ideal))
    (a8 : (⟨S128x256, .f32⟩ : BufTy).Contents (Elt Ideal)) (a9 : (⟨S128, .f32⟩ : BufTy).Contents (Elt Ideal))
    (a10 : (⟨S1x128, .f32⟩ : BufTy).Contents (Elt Ideal)) (a11 : (⟨S1, .f32⟩ : BufTy).Contents (Elt Ideal))
    (b : Fin 16384) :
    val_main_v74 (F := Ideal) a0 a1 a2 a3 a4 a5 a6 a7 a8 a9 a10 a11 (ix2 b (0 : Fin 1))
      = rowOut (fun f j => val_main_v16 (F := Ideal) a1 a2 (ix3 b f j)) (fun f => val_main_v34 (F := Ideal) a1 a3 (ix2 b f))
          (fun k => a0 (ix2 b k)) (fun k => a4 (ix2 (0 : Fin 1) k)) (a5 (ix1 (0 : Fin 1)))
          (fun n k => a6 (ix2 n k)) (fun n => a7 (ix1 n)) (fun p n => a8 (ix2 p n)) (fun p => a9 (ix1 p))
          (fun p => a10 (ix2 (0 : Fin 1) p)) (a11 (ix1 (0 : Fin 1))) := by
  rw [val_main_v74_apply, val_main_v73_apply, val_main_cst_12_apply, val_main_v72_apply, val_main_v71_apply,
    val_main_cst_11_apply, val_main_v70_apply, val_main_v69_apply, val_main_v68_apply, v67_at, v42_at,
    Ideal.ofBits_def, ofBits_one_f32]
  rfl

end Cert.ReferenceIdeal.Row

end
-- ==== Proof.LibNary3.lean ====
/-
  A host operation over a literal family of THREE references (a three-piece concatenate): its result, with each
  operand's contents read at its own reference, so that the operands' contents can be rewritten in turn.
-/
import Idealize.ShloMosaic.Lib.StableHlo.Run

namespace Idealize.ShloMosaic.StableHlo

variable {τ : Topo} {sig : RefSig} {Val : EltTy → Type}
variable {x a b y : Ref sig .tc}

/-- The result of an operation over the three references `x, a, b`, at its result reference: its function applied
    to the three operands' contents, each at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.Bridge.lean ====
/-
  The two programs compute one function. Both gather the embedding rows and the linear weights with the same
  host operations, so the arrays the kernel's launch finds are the reference's gathered arrays of the same
  arguments; from there the kernel's result array is `rowOut` of each row (the tiles' blocks laid side by side)
  and so is the reference's result, row by row.
-/
import proofs.«413667_j50663434224284_1_alg».proof.Defs
import proofs.«413667_j50663434224284_1_alg».proof.Proof.KernelValue
import proofs.«413667_j50663434224284_1_alg».proof.Proof.RefRow
import proofs.«413667_j50663434224284_1_alg».proof.Proof.LibNary3
import proofs.«413667_j50663434224284_1_alg».proof.Proof.Gen.Pre_finite_inputs
import Idealize.ShloMosaic.Lib.StableHlo.Run

set_option maxRecDepth 16384

noncomputable section

namespace Cert.Bridge

open Idealize.ShloMosaic Idealize.ShloMosaic.TcCoe Idealize.SL.Sem Idealize.ShloMosaic.ValueIdx Idealize.ShloMosaic.StableHlo
open Cert.Nfm
open Cert.KernelIdeal.Frame (V V_main_arg0 V_main_arg4 V_main_arg5 V_main_arg6 V_main_arg7 V_main_arg8 V_main_arg9 V_main_arg10 V_main_arg11)

variable (m : (ℓ : Loc Cert.KernelIdeal.nD Cert.KernelIdeal.τ Cert.KernelIdeal.sig) → Buf (Elt Ideal) ℓ)

set_option maxHeartbeats 8000000 in
/-- The gathered embeddings the launch finds are the reference's gather of the same two arguments. -/
theorem V_emb (c : Dev Cert.KernelIdeal.nD) :
    (V m c Cert.KernelIdeal.main_v16 : Cert.KernelIdeal.S16384x26x32.Idx → EReal)
      = Cert.ReferenceIdeal.Read.val_main_v16 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  dsimp only [V, Cert.KernelIdeal.Gen.hostOps0]
  after_results
  rfl

set_option maxHeartbeats 8000000 in
/-- The gathered linear weights the launch finds are the reference's gather of the same two arguments. -/
theorem V_lin (c : Dev Cert.KernelIdeal.nD) :
    (V m c Cert.KernelIdeal.main_v34 : Cert.KernelIdeal.S16384x26.Idx → EReal)
      = Cert.ReferenceIdeal.Read.val_main_v34 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) := by
  dsimp only [V, Cert.KernelIdeal.Gen.hostOps0]
  simp only [after_cons, after_nil]
  repeat (first
    | rw [nullary_result] | rw [unary_result] | rw [binary_result] | rw [ternary_result] | rw [nary3_result]
    | (rw [nullary_result_ne]; rotate_left; decide)
    | (rw [unary_result_ne]; rotate_left; decide)
    | (rw [binary_result_ne]; rotate_left; decide)
    | (rw [ternary_result_ne]; rotate_left; decide)
    | (rw [nary_result_ne]; rotate_left; decide))
  rfl

/-- The kernel's result array, as a function of the launch contents. -/
abbrev result (c : Dev Cert.KernelIdeal.nD) : Cert.KernelIdeal.S16384x1.Idx → EReal :=
  Cert.KernelIdeal.Val.G (V m c Cert.KernelIdeal.main_v16) (V m c Cert.KernelIdeal.main_v34) (V m c Cert.KernelIdeal.main_arg0) (V m c Cert.KernelIdeal.main_arg4) (V m c Cert.KernelIdeal.main_arg5) (V m c Cert.KernelIdeal.main_arg6) (V m c Cert.KernelIdeal.main_arg7) (V m c Cert.KernelIdeal.main_arg8) (V m c Cert.KernelIdeal.main_arg9) (V m c Cert.KernelIdeal.main_arg10) (V m c Cert.KernelIdeal.main_arg11)

/-- The reference's result, read at row `b`, is the kernel's result array at row `b`. -/
theorem ref_eq_result (c : Dev Cert.KernelIdeal.nD) :
    Cert.ReferenceIdeal.Read.val_main_v74 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
      = result m c := by
  funext i
  obtain ⟨b, q, rfl⟩ : ∃ (b : Fin 16384) (q : Fin 1), i = ix2 b q := ⟨i 0, i 1, eq_ix2 i⟩
  obtain rfl : q = 0 := Subsingleton.elim _ _
  refine (Cert.ReferenceIdeal.Row.ref_row _ _ _ _ _ _ _ _ _ _ _ _ b).trans ?_
  show rowOut _ _ _ _ _ _ _ _ _ _ _ = rowOut _ _ _ _ _ _ _ _ _ _ _
  refine Cert.KernelIdeal.Val.rowOut_congr ?_ ?_ ?_ ?_ ?_ ?_ ?_ ?_ ?_ ?_ ?_
  · intro f j; rw [V_emb]
  · intro f; rw [V_lin]
  · intro k; rw [V_main_arg0]
  · intro k; rw [V_main_arg4]
  · rw [V_main_arg5]
  · intro n k; rw [V_main_arg6]
  · intro n; rw [V_main_arg7]
  · intro p n; rw [V_main_arg8]
  · intro p; rw [V_main_arg9]
  · intro p; rw [V_main_arg10]
  · rw [V_main_arg11]

/-- From memories agreeing on the arguments both programs end, with equal result arrays and unchanged arguments. -/
theorem algebraic : Cert.algebraic_KernelIdeal_ReferenceIdeal := by
  intro m ρ m' ρ' _ hagree
  refine ⟨fun c => result m c, Cert.KernelIdeal.Val.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v74_eq]
  obtain ⟨h0, h1, h2, h3, h4, h5, h6, h7, h8, h9, h10, h11⟩ := hagree c
  rw [h0, h1, h2, h3, h4, h5, h6, h7, h8, h9, h10, h11]
  exact ref_eq_result m c

end Cert.Bridge

end
-- ==== Proof.lean ====
/-
  The five claims about the fused factorization-machine kernel (per-field embedding gathers on the host, then one
  launch over eight batch tiles computing the bi-interaction pooling, the two hidden layers, the linear part and
  the logistic) and its plain reference.

  * The kernel's program, word level and idealized, runs to the end without a fault and leaves its arguments
    unchanged: no host operation of the prefix writes an argument, and each tile reads its blocks whole and
    overwrites its block of the result whole (Proof/KernelFrame.lean, Proof/KernelIdealFrame.lean).
  * The reference is a straight line of host operations; its run gives each result as the operations' term.
  * The idealization changed no operation.
  * Over the extended reals the two results agree entry by entry: both are, at batch row b, the same function of
    row b of the gathered embeddings, the gathered linear weights and the dense features and of the weights
    (Proof/Spec.lean); the kernel's array is the eight tiles' blocks laid side by side (Proof/KernelValue.lean),
    the two programs' gathers are one term (Proof/Bridge.lean), and every sum and product is grouped the same
    way on both sides, so no finiteness is used.
-/
import proofs.«413667_j50663434224284_1_alg».proof.Defs
import proofs.«413667_j50663434224284_1_alg».proof.Proof.Gen.Kernel
import proofs.«413667_j50663434224284_1_alg».proof.Proof.Gen.KernelIdeal
import proofs.«413667_j50663434224284_1_alg».proof.Proof.Gen.ReferenceIdeal
import proofs.«413667_j50663434224284_1_alg».proof.Proof.Gen.Pre_finite_inputs
import proofs.«413667_j50663434224284_1_alg».proof.Proof.Gen.ReferenceIdeal.Run
import proofs.«413667_j50663434224284_1_alg».proof.Proof.KernelFrame
import proofs.«413667_j50663434224284_1_alg».proof.Proof.KernelIdealFrame
import proofs.«413667_j50663434224284_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
